-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S4x4096x4096 : Shape := ⟨3, ![4, 4096, 4096]⟩
abbrev S4x128x64 : Shape := ⟨3, ![4, 128, 64]⟩
abbrev S4x64x16 : Shape := ⟨3, ![4, 64, 16]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x128x64 : S_.BroadcastsInDim S4x128x64 (![] : Fin 0 → Fin S4x128x64.rank)
  reducesTo_S4x128x64_S_d0_1_2 : S4x128x64.ReducesTo [0, 1, 2] S_
  bcast_S_S4x64x16 : S_.BroadcastsInDim S4x64x16 (![] : Fin 0 → Fin S4x64x16.rank)
  reducesTo_S4x64x16_S_d0_1_2 : S4x64x16.ReducesTo [0, 1, 2] S_

variable [Facts]

def fn_part1 {F : FTy → Type} [FloatOps F] (main_v13 : IVec S_ 1) (main_v16 : IVec S4x64x16 1) : IVec S_ 1 :=
  let main_c_5 : IVec S_ 1 := constantI S_ 1 1#1
  let main_v17 : IVec S_ 1 := (fun x v => Host.reduce IntOp.andi x v reducesTo_S4x64x16_S_d0_1_2 h_S_) main_v16 main_c_5
  let main_v18 : IVec S_ 1 := andi main_v13 main_v17
  main_v18

def fn {F : FTy → Type} [FloatOps F] (main_arg0 : FVec F S4x4096x128 .f32) (main_arg1 : FVec F S4x4096x4096 .f32) (main_arg2 : FVec F S4x128x64 .f32) (main_arg3 : FVec F S4x64x16 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x128x64 .f32 := Host.absf main_arg2
  let main_cst_2 : FVec F S_ .f32 := constant S_ .f32 0x7F800000#32
  let main_v10 : FVec F S4x128x64 .f32 := broadcastInDim S4x128x64 ![] bcast_S_S4x128x64 main_cst_2
  let main_v11 : IVec S4x128x64 1 := cmpf .olt main_v9 main_v10
  let main_c_3 : IVec S_ 1 := constantI S_ 1 1#1
  let main_v12 : IVec S_ 1 := (fun x v => Host.reduce IntOp.andi x v reducesTo_S4x128x64_S_d0_1_2 h_S_) main_v11 main_c_3
  let main_v13 : IVec S_ 1 := andi main_v8 main_v12
  let main_v14 : FVec F S4x64x16 .f32 := Host.absf main_arg3
  let main_cst_4 : FVec F S_ .f32 := constant S_ .f32 0x7F800000#32
  let main_v15 : FVec F S4x64x16 .f32 := broadcastInDim S4x64x16 ![] bcast_S_S4x64x16 main_cst_4
  let main_v16 : IVec S4x64x16 1 := cmpf .olt main_v14 main_v15
  fn_part1 (F := F) main_v13 main_v16
-- ==== Kernel.lean ====
abbrev S4x4096x128 : Shape := ⟨3, ![4, 4096, 128]⟩
abbrev S4x4096x4096 : Shape := ⟨3, ![4, 4096, 4096]⟩
abbrev S4x128x64 : Shape := ⟨3, ![4, 128, 64]⟩
abbrev S4x64x16 : Shape := ⟨3, ![4, 64, 16]⟩
abbrev S4x4096x64 : Shape := ⟨3, ![4, 4096, 64]⟩
abbrev S1x512x4096 : Shape := ⟨3, ![1, 512, 4096]⟩
abbrev S1x4096x128 : Shape := ⟨3, ![1, 4096, 128]⟩
abbrev S1x128x64 : Shape := ⟨3, ![1, 128, 64]⟩
abbrev S1x512x64 : Shape := ⟨3, ![1, 512, 64]⟩
abbrev S4096x64 : Shape := ⟨2, ![4096, 64]⟩
abbrev S4096x128 : Shape := ⟨2, ![4096, 128]⟩
abbrev S128x64 : Shape := ⟨2, ![128, 64]⟩
abbrev S512x4096 : Shape := ⟨2, ![512, 4096]⟩
abbrev S512x64 : Shape := ⟨2, ![512, 64]⟩
abbrev S4x4096x16 : Shape := ⟨3, ![4, 4096, 16]⟩
abbrev S1x4096x64 : Shape := ⟨3, ![1, 4096, 64]⟩
abbrev S1x64x16 : Shape := ⟨3, ![1, 64, 16]⟩
abbrev S1x512x16 : Shape := ⟨3, ![1, 512, 16]⟩
abbrev S4096x16 : Shape := ⟨2, ![4096, 16]⟩
abbrev S64x16 : Shape := ⟨2, ![64, 16]⟩
abbrev S512x16 : Shape := ⟨2, ![512, 16]⟩
abbrev S512 : Shape := ⟨1, ![512]⟩
abbrev S512x1 : Shape := ⟨2, ![512, 1]⟩
abbrev S1x1024x16 : Shape := ⟨3, ![1, 1024, 16]⟩
abbrev S1x1024x1024 : Shape := ⟨3, ![1, 1024, 1024]⟩
abbrev S1024x16 : Shape := ⟨2, ![1024, 16]⟩
abbrev S1024x1024 : Shape := ⟨2, ![1024, 1024]⟩

abbrev nBuf : Space → Nat
  | .hbm => 7
  | .vmem => 24
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S4x128x64, .f32⟩
  | .hbm, ⟨3, _⟩ => ⟨S4x64x16, .f32⟩
  | .hbm, ⟨4, _⟩ => ⟨S4x4096x64, .f32⟩
  | .hbm, ⟨5, _⟩ => ⟨S4x4096x16, .f32⟩
  | .hbm, ⟨6, _⟩ => ⟨S4x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x4096x128, .f32⟩
  | .local _ .vmem, ⟨3, _⟩ => ⟨S1x4096x128, .f32⟩
  | .local _ .vmem, ⟨4, _⟩ => ⟨S1x128x64, .f32⟩
  | .local _ .vmem, ⟨5, _⟩ => ⟨S1x128x64, .f32⟩
  | .local _ .vmem, ⟨6, _⟩ => ⟨S1x512x64, .f32⟩
  | .local _ .vmem, ⟨7, _⟩ => ⟨S1x512x64, .f32⟩
  | .local _ .vmem, ⟨8, _⟩ => ⟨S4096x64, .f32⟩
  | .local _ .vmem, ⟨9, _⟩ => ⟨S1x512x4096, .f32⟩
  | .local _ .vmem, ⟨10, _⟩ => ⟨S1x512x4096, .f32⟩
  | .local _ .vmem, ⟨11, _⟩ => ⟨S1x4096x64, .f32⟩
  | .local _ .vmem, ⟨12, _⟩ => ⟨S1x4096x64, .f32⟩
  | .local _ .vmem, ⟨13, _⟩ => ⟨S1x64x16, .f32⟩
  | .local _ .vmem, ⟨14, _⟩ => ⟨S1x64x16, .f32⟩
  | .local _ .vmem, ⟨15, _⟩ => ⟨S1x512x16, .f32⟩
  | .local _ .vmem, ⟨16, _⟩ => ⟨S1x512x16, .f32⟩
  | .local _ .vmem, ⟨17, _⟩ => ⟨S4096x16, .f32⟩
  | .local _ .vmem, ⟨18, _⟩ => ⟨S1x1024x16, .f32⟩
  | .local _ .vmem, ⟨19, _⟩ => ⟨S1x1024x16, .f32⟩
  | .local _ .vmem, ⟨20, _⟩ => ⟨S1x1024x16, .f32⟩
  | .local _ .vmem, ⟨21, _⟩ => ⟨S1x1024x16, .f32⟩
  | .local _ .vmem, ⟨22, _⟩ => ⟨S1x1024x1024, .f32⟩
  | .local _ .vmem, ⟨23, _⟩ => ⟨S1x1024x1024, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![4, 4, 4], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x1024x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x64x16_S1x64x16_0_0_0 : ∀ a, (![0, 0, 0] : Fin 3 → Nat) a + S1x64x16.size a ≤ S1x64x16.size a
  h_S1x64x16 : 0 < S1x64x16.numel
  shapeCasts_S1x64x16_S64x16 : S1x64x16.ShapeCasts S64x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  reduces_S512x16_S512 : S512x16.Reduces [1] S512
  shapeCasts_S512_S512x1 : S512.ShapeCasts S512x1
  broadcasts_S512x1_S512x16 : S512x1.Broadcasts S512x16
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  shapeCasts_S512x16_S1x512x16 : S512x16.ShapeCasts S1x512x16
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S4096x128_S128x64_S4096x64_1_0_0_1_n_n_wf : DotDims.WF S4096x128 S128x64 S4096x64 [1] [0] [0] [1] [] []
  dot_S512x4096_S4096x64_S512x64_1_0_0_1_n_n_wf : DotDims.WF S512x4096 S4096x64 S512x64 [1] [0] [0] [1] [] []
  dot_S4096x64_S64x16_S4096x16_1_0_0_1_n_n_wf : DotDims.WF S4096x64 S64x16 S4096x16 [1] [0] [0] [1] [] []
  dot_S512x4096_S4096x16_S512x16_1_0_0_1_n_n_wf : DotDims.WF S512x4096 S4096x16 S512x16 [1] [0] [0] [1] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S4x4096x128.size a
  hwx0_1 : ∀ i : grid0.Coords, EltTy.bits .f32 = 32 ∨ (Rect.block (s := S4x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64.size a ≤ S4x128x64.size a
  hwx0_2 : ∀ i : grid0.Coords, EltTy.bits .f32 = 32 ∨ (Rect.block (s := S4x128x64) S1x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S4x4096x64.size a
  hwx0_3 : ∀ i : grid0.Coords, EltTy.bits .f32 = 32 ∨ (Rect.block (s := S4x4096x64) S1x512x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S4x4096x4096.size a
  hwx1_0 : ∀ i : grid1.Coords, EltTy.bits .f32 = 32 ∨ (Rect.block (s := S4x4096x4096) S1x512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S4x4096x64.size a
  hwx1_1 : ∀ i : grid1.Coords, EltTy.bits .f32 = 32 ∨ (Rect.block (s := S4x4096x64) S1x4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x16.size a ≤ S4x64x16.size a
  hwx1_2 : ∀ i : grid1.Coords, EltTy.bits .f32 = 32 ∨ (Rect.block (s := S4x64x16) S1x64x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x16.size a ≤ S4x4096x16.size a
  hwx1_3 : ∀ i : grid1.Coords, EltTy.bits .f32 = 32 ∨ (Rect.block (s := S4x4096x16) S1x512x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x16.size a ≤ S4x4096x16.size a
  hwx2_0 : ∀ i : grid2.Coords, EltTy.bits .f32 = 32 ∨ (Rect.block (s := S4x4096x16) S1x1024x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x16.size a ≤ S4x4096x16.size a
  hwx2_1 : ∀ i : grid2.Coords, EltTy.bits .f32 = 32 ∨ (Rect.block (s := S4x4096x16) S1x1024x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1024.size a ≤ S4x4096x4096.size a
  hwx2_2 : ∀ i : grid2.Coords, EltTy.bits .f32 = 32 ∨ (Rect.block (s := S4x4096x4096) S1x1024x1024.size (cc2_transform_2 i) (hinb2_2 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_arg1) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x64x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S1x1024x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x1024x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S4x128x64 : Shape := ⟨3, ![4, 128, 64]⟩
abbrev S4x64x16 : Shape := ⟨3, ![4, 64, 16]⟩
abbrev S4x4096x64 : Shape := ⟨3, ![4, 4096, 64]⟩
abbrev S_ : Shape := ⟨0, ![]⟩
abbrev S4x4096x16 : Shape := ⟨3, ![4, 4096, 16]⟩
abbrev S4x4096 : Shape := ⟨2, ![4, 4096]⟩
abbrev S4x4096x1 : Shape := ⟨3, ![4, 4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S4x128x64, .f32⟩
  | .hbm, ⟨3, _⟩ => ⟨S4x64x16, .f32⟩
  | .hbm, ⟨4, _⟩ => ⟨S4x4096x64, .f32⟩
  | .hbm, ⟨5, _⟩ => ⟨S4x4096x64, .f32⟩
  | .hbm, ⟨6, _⟩ => ⟨S_, .f32⟩
  | .hbm, ⟨7, _⟩ => ⟨S4x4096x64, .f32⟩
  | .hbm, ⟨8, _⟩ => ⟨S4x4096x64, .f32⟩
  | .hbm, ⟨9, _⟩ => ⟨S4x4096x16, .f32⟩
  | .hbm, ⟨10, _⟩ => ⟨S4x4096x16, .f32⟩
  | .hbm, ⟨11, _⟩ => ⟨S4x4096x16, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x1, .f32⟩
  | .hbm, ⟨16, _⟩ => ⟨S4x4096x16, .f32⟩
  | .hbm, ⟨17, _⟩ => ⟨S4x4096x16, .f32⟩
  | .hbm, ⟨18, _⟩ => ⟨S4x4096x4096, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]

class Facts₀ : Prop where
  bcast_S_S4x4096x64 : S_.BroadcastsInDim S4x4096x64 (![] : Fin 0 → Fin S4x4096x64.rank)
  reducesTo_S4x4096x16_S4x4096_d2 : S4x4096x16.ReducesTo [2] S4x4096
  h_S_ : 0 < S_.numel
  bcast_S4x4096_S4x4096x1_0_1 : S4x4096.BroadcastsInDim S4x4096x1 (![0, 1] : Fin 2 → Fin S4x4096x1.rank)
  bcast_S4x4096x1_S4x4096x16_0_1_2 : S4x4096x1.BroadcastsInDim S4x4096x16 (![0, 1, 2] : Fin 3 → Fin S4x4096x16.rank)
  dot_S4x4096x128_S4x128x64_S4x4096x64_2_1_1_2_0_0_wf : DotDims.WF S4x4096x128 S4x128x64 S4x4096x64 [2] [1] [1] [2] [0] [0]
  dot_S4x4096x4096_S4x4096x64_S4x4096x64_2_1_1_2_0_0_wf : DotDims.WF S4x4096x4096 S4x4096x64 S4x4096x64 [2] [1] [1] [2] [0] [0]
  dot_S4x4096x64_S4x64x16_S4x4096x16_2_1_1_2_0_0_wf : DotDims.WF S4x4096x64 S4x64x16 S4x4096x16 [2] [1] [1] [2] [0] [0]
  dot_S4x4096x4096_S4x4096x16_S4x4096x16_2_1_1_2_0_0_wf : DotDims.WF S4x4096x4096 S4x4096x16 S4x4096x16 [2] [1] [1] [2] [0] [0]
  dot_S4x4096x16_S4x4096x16_S4x4096x4096_2_2_1_1_0_0_wf : DotDims.WF S4x4096x16 S4x4096x16 S4x4096x4096 [2] [2] [1] [1] [0] [0]

variable [Facts₀]

def dot_S4x4096x128_S4x128x64_S4x4096x64_2_1_1_2_0_0 : DotDims S4x4096x128 S4x128x64 S4x4096x64 where
  lhsContracting := [2]
  rhsContracting := [1]
  lhsNonContracting := [1]
  rhsNonContracting := [2]
  lhsBatch := [0]
  rhsBatch := [0]
  wf := dot_S4x4096x128_S4x128x64_S4x4096x64_2_1_1_2_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S4x64x16_S4x4096x16_2_1_1_2_0_0 : DotDims S4x4096x64 S4x64x16 S4x4096x16 where
  lhsContracting := [2]
  rhsContracting := [1]
  lhsNonContracting := [1]
  rhsNonContracting := [2]
  lhsBatch := [0]
  rhsBatch := [0]
  wf := dot_S4x4096x64_S4x64x16_S4x4096x16_2_1_1_2_0_0_wf
def dot_S4x4096x4096_S4x4096x16_S4x4096x16_2_1_1_2_0_0 : DotDims S4x4096x4096 S4x4096x16 S4x4096x16 where
  lhsContracting := [2]
  rhsContracting := [1]
  lhsNonContracting := [1]
  rhsNonContracting := [2]
  lhsBatch := [0]
  rhsBatch := [0]
  wf := dot_S4x4096x4096_S4x4096x16_S4x4096x16_2_1_1_2_0_0_wf
def dot_S4x4096x16_S4x4096x16_S4x4096x4096_2_2_1_1_0_0 : DotDims S4x4096x16 S4x4096x16 S4x4096x4096 where
  lhsContracting := [2]
  rhsContracting := [2]
  lhsNonContracting := [1]
  rhsNonContracting := [1]
  lhsBatch := [0]
  rhsBatch := [0]
  wf := dot_S4x4096x16_S4x4096x16_S4x4096x4096_2_2_1_1_0_0_wf

class Facts : Prop extends Facts₀ where

variable [Facts]
-- ==== Proof.KI.Body0.lean ====
/-
  Region 0 (the first graph convolution), the body on any staging memrefs.

  At a grid point (b, i) the body first, when i = 0, stores the support matrix x[b] · W1[b] into its scratch; then at
  every point it multiplies its 512 rows of adj[b] by the scratch and keeps the positive part. Two runs: at a point with
  i = 0 the scratch is found at anything and left at the product of the two operand blocks; at any other point it is found
  at some contents s and left as found, the output block being computed from s.
-/
import proofs.«129303_j70884140253432_1_alg».proof.Proof.Gen.KernelIdeal.Skeleton
import proofs.«129303_j70884140253432_1_alg».proof.Proof.Gen.KernelIdeal.Launch
import proofs.«129303_j70884140253432_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The accesses: every load and store of the body takes its memref whole -/

abbrev rA0 : Rect S1x512x4096 := Rect.unit (s := S1x512x4096) ![0, 0, 0] S1x512x4096.size inb_S1x512x4096_S1x512x4096_0_0_0
abbrev rX0 : Rect S1x4096x128 := Rect.unit (s := S1x4096x128) ![0, 0, 0] S1x4096x128.size inb_S1x4096x128_S1x4096x128_0_0_0
abbrev rW0 : Rect S1x128x64 := Rect.unit (s := S1x128x64) ![0, 0, 0] S1x128x64.size inb_S1x128x64_S1x128x64_0_0_0
abbrev rO0 : Rect S1x512x64 := Rect.unit (s := S1x512x64) ![0, 0, 0] S1x512x64.size inb_S1x512x64_S1x512x64_0_0_0
abbrev rS0 : Rect S4096x64 := Rect.unit (s := S4096x64) ![0, 0] S4096x64.size inb_S4096x64_S4096x64_0_0

/-- The branch of the body: the second grid coordinate is zero. -/
abbrev cond0 (i : grid0.Coords) : Prop :=
  (Scalar.cmpi .ne (Scalar.extui (Scalar.cmpi .eq (BitVec.ofNat 32 (i 1).val) 0#32)) 0#32) = 1#1

/-- The support matrix as the body stores it: the product of the x block and the W1 block. -/
def sup0 (xx : Vec F S1x4096x128 .f32) (xw : Vec F S1x128x64 .f32) : Vec F S4096x64 .f32 :=
  View.canon [⟨rS0, k0_pay1 (View.ld xx rX0) (View.ld xw rW0)⟩]

/-- The output block: the adjacency rows times the scratch, positive part. -/
def out0 (xa : Vec F S1x512x4096 .f32) (s : Vec F S4096x64 .f32) : Vec F S1x512x64 .f32 :=
  View.canon [⟨rO0, k0_pay2 (View.ld xa rA0) (View.ld s rS0)⟩]

theorem coverS0 (p0 : Vec F S4096x64 .f32) (y : S4096x64.Idx) :
    ∃ pc ∈ ([⟨rS0, p0⟩] : List (View.Piece (Elt F) S4096x64 .f32)), y ∈ pc.1.set :=
  View.cover_of_tiled [⟨rS0, p0⟩] S4096x64.size (by rfl) y

theorem coverO0 (p0 : Vec F S1x512x64 .f32) (y : S1x512x64.Idx) :
    ∃ pc ∈ ([⟨rO0, p0⟩] : List (View.Piece (Elt F) S1x512x64 .f32)), y ∈ pc.1.set :=
  View.cover_of_tiled [⟨rO0, p0⟩] S1x512x64.size (by rfl) y

set_option maxHeartbeats 1000000 in
/-- A point with i ≠ 0: the scratch is read, not written. -/
theorem run0_rest (c : Dev nD) (i : grid0.Coords) (hc : ¬cond0 i) (E : Set ℕ)
    (arg2 : Memref sig .tc .vmem S1x512x4096 .f32) (harg2 : arg2.IsWhole) (arg3 : Memref sig .tc .vmem S1x4096x128 .f32) (harg3 : arg3.IsWhole)
    (arg4 : Memref sig .tc .vmem S1x128x64 .f32) (harg4 : arg4.IsWhole) (arg5 : Memref sig .tc .vmem S1x512x64 .f32) (harg5 : arg5.IsWhole)
    (arg6 : Memref sig .tc .vmem S4096x64 .f32) (harg6 : arg6.IsWhole)
    (xa : Vec F S1x512x4096 .f32) (s : Vec F S4096x64 .f32) (K : PUnit → sProp 𝕄) :
    iprop(owns (c : Thread nD τ) arg2 fullShare xa ∗ (∃ d, owns (c : Thread nD τ) arg5 fullShare d) ∗ owns (c : Thread nD τ) arg6 fullShare s
        ∗ (iprop(owns (c : Thread nD τ) arg2 fullShare xa ∗ owns (c : Thread nD τ) arg5 fullShare (out0 xa s) ∗ owns (c : Thread nD τ) arg6 fullShare s) -∗ K ⟨⟩))
      ⊢ wp frame (wpE (defs₀ (F := F)) Variants.none c none) E (cc0__h_kernel i arg2 harg2 arg3 harg3 arg4 harg4 arg5 harg5 arg6 harg6) K := by
  simp only [cc0__h_kernel_eq_skeleton]; unfold cc0__h_kernel_skel
  unfold owns
  iintro ⟨⟨%f2, %hf2, H2⟩, ⟨%d5, %f5, -, H5⟩, ⟨%f6, %hf6, H6⟩, Hk⟩
  subst hf2; subst hf6
  sl_exec (disch := exact hc)
  sl_step
  iapply Hk
  isplitl [H2]
  · iexists f2; isplitr; · ipureintro; rfl
    iexact H2
  isplitl [H5]
  · iexists _; isplitr
    swap; · iexact H5
    ipureintro
    exact View.read_writes_eq_canon _ _ _ (coverO0 _)
  iexists f6; isplitr; · ipureintro; rfl
  iexact H6

set_option maxHeartbeats 1000000 in
/-- A point with i = 0: the scratch is stored whole, then read back. -/
theorem run0_first (c : Dev nD) (i : grid0.Coords) (hc : cond0 i) (E : Set ℕ)
    (arg2 : Memref sig .tc .vmem S1x512x4096 .f32) (harg2 : arg2.IsWhole) (arg3 : Memref sig .tc .vmem S1x4096x128 .f32) (harg3 : arg3.IsWhole)
    (arg4 : Memref sig .tc .vmem S1x128x64 .f32) (harg4 : arg4.IsWhole) (arg5 : Memref sig .tc .vmem S1x512x64 .f32) (harg5 : arg5.IsWhole)
    (arg6 : Memref sig .tc .vmem S4096x64 .f32) (harg6 : arg6.IsWhole)
    (xa : Vec F S1x512x4096 .f32) (xx : Vec F S1x4096x128 .f32) (xw : Vec F S1x128x64 .f32) (K : PUnit → sProp 𝕄) :
    iprop(owns (c : Thread nD τ) arg2 fullShare xa ∗ owns (c : Thread nD τ) arg3 fullShare xx ∗ owns (c : Thread nD τ) arg4 fullShare xw
        ∗ (∃ d, owns (c : Thread nD τ) arg5 fullShare d) ∗ (∃ d, owns (c : Thread nD τ) arg6 fullShare d)
        ∗ (iprop(owns (c : Thread nD τ) arg2 fullShare xa ∗ owns (c : Thread nD τ) arg3 fullShare xx ∗ owns (c : Thread nD τ) arg4 fullShare xw
            ∗ owns (c : Thread nD τ) arg5 fullShare (out0 xa (sup0 xx xw)) ∗ owns (c : Thread nD τ) arg6 fullShare (sup0 xx xw)) -∗ K ⟨⟩))
      ⊢ wp frame (wpE (defs₀ (F := F)) Variants.none c none) E (cc0__h_kernel i arg2 harg2 arg3 harg3 arg4 harg4 arg5 harg5 arg6 harg6) K := by
  simp only [cc0__h_kernel_eq_skeleton]; unfold cc0__h_kernel_skel
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2; subst hf3; subst hf4
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverO0 _)]
    sl_unfold_words
    rw [View.readCov_eq_canon _ _ _ (fun j => coverS0 _ _)]
    rfl
  iexists _; isplitr
  swap; · iexact H6
  ipureintro
  exact View.read_writes_eq_canon _ _ _ (coverS0 _)

end Cert.KernelIdeal.Hand

end
-- ==== Proof.KI.Dat0.lean ====
/-
  Region 0 (the first graph convolution): what each staging buffer and the scratch hold point by point, and the body
  obligation of the pipeline rule.

  The grid is 4 batches of 8 row blocks, walked batch by batch. The x and W1 windows depend on the batch only, so within a
  batch their staging buffers keep one block; the scratch is stored at a batch's first point (i = 0) with the product of
  those two blocks and only read at the other seven. After point t the scratch therefore holds the product of the x and W1
  blocks of the FIRST point of t's batch, and the output buffer holds the positive part of (adj rows of t) · (that product).
-/
import proofs.«129303_j70884140253432_1_alg».proof.Proof.Gen.KernelIdeal.Skeleton
import proofs.«129303_j70884140253432_1_alg».proof.Proof.Gen.KernelIdeal.Launch
import proofs.«129303_j70884140253432_1_alg».proof.Proof.Gen.KernelIdeal.Points
import proofs.«129303_j70884140253432_1_alg».proof.Proof.KI.Body0
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scratch operand: a whole scoped buffer of the kernel's own. -/
abbrev scM0 : Memref sig .tc .vmem S4096x64 .f32 := Memref.whole cc0_scratch0

/-- The branch is taken exactly at the first point of each batch of eight. -/
theorem hcond0 : ∀ t : Fin cfg0.N, cond0 (grid0.coords t) ↔ t.val % 8 = 0 :=
  (by decide +kernel : ∀ t : Fin grid0.N, cond0 (grid0.coords t) ↔ t.val % 8 = 0)

/-- The first point of `t`'s batch. -/
def base0 (t : Fin cfg0.N) : Fin cfg0.N :=
  ⟨8 * (t.val / 8), by have h := t.isLt; have hN : cfg0.N = 32 := N_0; omega⟩

theorem base0_of_first (t : Fin cfg0.N) (h : t.val % 8 = 0) : base0 t = t := Fin.ext (by unfold base0; dsimp only; omega)

theorem base0_pred (t : Fin cfg0.N) (h : ¬t.val % 8 = 0) :
    base0 ⟨t.val - 1, Nat.lt_of_le_of_lt (Nat.sub_le _ _) t.isLt⟩ = base0 t := Fin.ext (by unfold base0; dsimp only; omega)

/-- The core's scoped buffers that are neither a staging buffer of this pipeline nor its scratch, each whole at some
    contents: what the body never touches. -/
def restScoped0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The class invariant with the scratch split off. -/
theorem PhiA0_eq (c : Dev nD) :
    (Pipeline.ΦA spec0 c : sProp 𝕄)
      = iprop(iprop((∃ d, owns (c : Thread nD τ) scM0 fullShare d) ∗ restScoped0 c) ∗ (∃ r, prngReg c r)) := by
  unfold Pipeline.ΦA Pipeline.scopedRest restScoped0
  rw [bigSep_erase (i := cc0_scratch0) (by decide)]
  simp only [scM0, owns_whole]
  rfl

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at their literal types. -/
abbrev ablk0 (c : Dev nD) (t : Fin cfg0.N) : Vec F S1x512x4096 .f32 := iblk0 V c 0 t
abbrev xblk0 (c : Dev nD) (t : Fin cfg0.N) : Vec F S1x4096x128 .f32 := iblk0 V c 1 t
abbrev wblk0 (c : Dev nD) (t : Fin cfg0.N) : Vec F S1x128x64 .f32 := iblk0 V c 2 t

/-- What the scratch holds after point `t`: the support matrix of `t`'s batch. -/
def scr0 (c : Dev nD) (t : Fin cfg0.N) : Vec F S4096x64 .f32 := sup0 (xblk0 V c (base0 t)) (wblk0 V c (base0 t))

/-- What the output buffer holds after point `t`. -/
def res0 (c : Dev nD) (t : Fin cfg0.N) : Vec F S1x512x64 .f32 := out0 (ablk0 V c t) (scr0 V c t)

/-- The region invariant before position `n`: before the first point the class's (every scratch at anything); afterwards the
    scratch at the support matrix of the point before, the other scoped buffers at anything, the generator register. -/
def Phi0 (c : Dev nD) : (n : ℕ) → n ≤ cfg0.N → sProp 𝕄
  | 0, _ => Pipeline.ΦA spec0 c
  | n + 1, hn => iprop(iprop(owns (c : Thread nD τ) scM0 fullShare (scr0 V c ⟨n, hn⟩) ∗ restScoped0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (scr0 V c ⟨n, hn⟩) ∗ restScoped0 c) ∗ (∃ r, prngReg c r)) := rfl

theorem Phi0_pos (c : Dev nD) (n : ℕ) (h : n ≤ cfg0.N) (hz : n ≠ 0) :
    Phi0 V c n h = iprop(iprop(owns (c : Thread nD τ) scM0 fullShare (scr0 V c ⟨n - 1, by omega⟩) ∗ restScoped0 c) ∗ (∃ r, prngReg c r)) := by
  cases n with
  | zero => exact absurd rfl hz
  | succ n => rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => res0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = res0 V c t := by dsimp only [dat0]

/-- Each input's current staging buffer holds its block at every point, fetched there or not: an unfetched window's
    index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: at a batch's first point the scratch is found at anything (the class invariant at the very first
    point, the previous batch's matrix later) and left at this batch's support matrix; at the other points it is found at
    this batch's matrix and left there. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [after0_0, after0_1, after0_2, after0_3]
  unfold res0 scr0
  by_cases h0 : t.val % 8 = 0
  · rw [base0_of_first t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩, ⟨%d3, H3⟩⟩
      iapply (run0_first c (grid0.coords t) ((hcond0 t).mpr h0) Set.univ _ _ _ _ _ _ _ _ _ _ (iblk0 V c 0 t) (iblk0 V c 1 t) (iblk0 V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Phi0_castSucc V c t, Phi0_pos V c _ _ hz]
      iintro ⟨⟨⟨HS, HR⟩, Hg⟩, Ho, ⟨%d0, H0⟩, ⟨%d1, H1⟩, ⟨%d2, H2⟩, ⟨%d3, H3⟩⟩
      iapply (run0_first c (grid0.coords t) ((hcond0 t).mpr h0) Set.univ _ _ _ _ _ _ _ _ _ _ (iblk0 V c 0 t) (iblk0 V c 1 t) (iblk0 V c 2 t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · have hz : t.val ≠ 0 := fun h => h0 (by rw [h])
    rw [Phi0_castSucc V c t, Phi0_pos V c _ _ hz]
    unfold scr0
    rw [base0_pred t h0]
    iintro ⟨⟨⟨HS, HR⟩, Hg⟩, Ho, ⟨%d0, H0⟩, ⟨%d1, H1⟩, ⟨%d2, H2⟩, ⟨%d3, H3⟩⟩
    iapply (run0_rest c (grid0.coords t) (fun h => h0 ((hcond0 t).mp h)) Set.univ _ _ _ _ _ _ _ _ _ _ (iblk0 V c 0 t) _ _)
    isplitl [H0]; · iexact H0
    isplitl [H3]; · iexists _; iexact H3
    isplitl [HS]; · iexact HS
    iintro ⟨H0, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class invariant) is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the class invariant back: the scratch's contents are forgotten. -/
theorem hout0 (c : Dev nD) : (dat0 V c).Φ (Fin.last cfg0.N) ⊢ Pipeline.ΦA spec0 c := by
  have hN : cfg0.N = 32 := N_0
  rw [show (dat0 V c).Φ (Fin.last cfg0.N) = Phi0 V c (Fin.last cfg0.N).val (Nat.le_of_lt_succ (Fin.last cfg0.N).isLt) from rfl,
    Phi0_pos V c _ _ (by rw [Fin.val_last]; omega), PhiA0_eq]
  iintro ⟨⟨HS, HR⟩, Hg⟩
  isplitl [HS HR]
  · isplitl [HS]; · iexists _; iexact HS
    iexact HR
  iexact Hg

end Region0

end Cert.KernelIdeal.Hand

end
-- ==== Proof.KI.Body1.lean ====
/-
  Region 1 (the second graph convolution and the row normalisation), the body on any staging memrefs.

  At a grid point (b, i) the body first, when i = 0, stores h[b] · W2[b] into its scratch; then at every point it
  multiplies its 512 rows of adj[b] by the scratch and divides each row by the square root of its sum of squares. Two
  runs, as for region 0: the scratch stored whole and read back where i = 0, read only elsewhere.
-/
import proofs.«129303_j70884140253432_1_alg».proof.Proof.Gen.KernelIdeal.Skeleton
import proofs.«129303_j70884140253432_1_alg».proof.Proof.Gen.KernelIdeal.Launch
import proofs.«129303_j70884140253432_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The accesses: every load and store of the body takes its memref whole -/

abbrev rA1 : Rect S1x512x4096 := Rect.unit (s := S1x512x4096) ![0, 0, 0] S1x512x4096.size inb_S1x512x4096_S1x512x4096_0_0_0
abbrev rH1 : Rect S1x4096x64 := Rect.unit (s := S1x4096x64) ![0, 0, 0] S1x4096x64.size inb_S1x4096x64_S1x4096x64_0_0_0
abbrev rW1 : Rect S1x64x16 := Rect.unit (s := S1x64x16) ![0, 0, 0] S1x64x16.size inb_S1x64x16_S1x64x16_0_0_0
abbrev rO1 : Rect S1x512x16 := Rect.unit (s := S1x512x16) ![0, 0, 0] S1x512x16.size inb_S1x512x16_S1x512x16_0_0_0
abbrev rS1 : Rect S4096x16 := Rect.unit (s := S4096x16) ![0, 0] S4096x16.size inb_S4096x16_S4096x16_0_0

/-- The branch of the body: the second grid coordinate is zero. -/
abbrev cond1 (i : grid1.Coords) : Prop :=
  (Scalar.cmpi .ne (Scalar.extui (Scalar.cmpi .eq (BitVec.ofNat 32 (i 1).val) 0#32)) 0#32) = 1#1

/-- The support matrix as the body stores it: the product of the h block and the W2 block. -/
def sup1 (xh : Vec F S1x4096x64 .f32) (xw : Vec F S1x64x16 .f32) : Vec F S4096x16 .f32 :=
  View.canon [⟨rS1, k1_pay1 (View.ld xh rH1) (View.ld xw rW1)⟩]

/-- The output block: the adjacency rows times the scratch, each row divided by its Euclidean length. -/
def out1 (xa : Vec F S1x512x4096 .f32) (s : Vec F S4096x16 .f32) : Vec F S1x512x16 .f32 :=
  View.canon [⟨rO1, k1_pay2 (View.ld xa rA1) (View.ld s rS1)⟩]

theorem coverS1 (p0 : Vec F S4096x16 .f32) (y : S4096x16.Idx) :
    ∃ pc ∈ ([⟨rS1, p0⟩] : List (View.Piece (Elt F) S4096x16 .f32)), y ∈ pc.1.set :=
  View.cover_of_tiled [⟨rS1, p0⟩] S4096x16.size (by rfl) y

theorem coverO1 (p0 : Vec F S1x512x16 .f32) (y : S1x512x16.Idx) :
    ∃ pc ∈ ([⟨rO1, p0⟩] : List (View.Piece (Elt F) S1x512x16 .f32)), y ∈ pc.1.set :=
  View.cover_of_tiled [⟨rO1, p0⟩] S1x512x16.size (by rfl) y

set_option maxHeartbeats 1000000 in
/-- A point with i ≠ 0: the scratch is read, not written. -/
theorem run1_rest (c : Dev nD) (i : grid1.Coords) (hc : ¬cond1 i) (E : Set ℕ)
    (arg2 : Memref sig .tc .vmem S1x512x4096 .f32) (harg2 : arg2.IsWhole) (arg3 : Memref sig .tc .vmem S1x4096x64 .f32) (harg3 : arg3.IsWhole)
    (arg4 : Memref sig .tc .vmem S1x64x16 .f32) (harg4 : arg4.IsWhole) (arg5 : Memref sig .tc .vmem S1x512x16 .f32) (harg5 : arg5.IsWhole)
    (arg6 : Memref sig .tc .vmem S4096x16 .f32) (harg6 : arg6.IsWhole)
    (xa : Vec F S1x512x4096 .f32) (s : Vec F S4096x16 .f32) (K : PUnit → sProp 𝕄) :
    iprop(owns (c : Thread nD τ) arg2 fullShare xa ∗ (∃ d, owns (c : Thread nD τ) arg5 fullShare d) ∗ owns (c : Thread nD τ) arg6 fullShare s
        ∗ (iprop(owns (c : Thread nD τ) arg2 fullShare xa ∗ owns (c : Thread nD τ) arg5 fullShare (out1 xa s) ∗ owns (c : Thread nD τ) arg6 fullShare s) -∗ K ⟨⟩))
      ⊢ wp frame (wpE (defs₀ (F := F)) Variants.none c none) E (cc1__z_kernel i arg2 harg2 arg3 harg3 arg4 harg4 arg5 harg5 arg6 harg6) K := by
  simp only [cc1__z_kernel_eq_skeleton]; unfold cc1__z_kernel_skel
  unfold owns
  iintro ⟨⟨%f2, %hf2, H2⟩, ⟨%d5, %f5, -, H5⟩, ⟨%f6, %hf6, H6⟩, Hk⟩
  subst hf2; subst hf6
  sl_exec (disch := exact hc)
  sl_step
  iapply Hk
  isplitl [H2]
  · iexists f2; isplitr; · ipureintro; rfl
    iexact H2
  isplitl [H5]
  · iexists _; isplitr
    swap; · iexact H5
    ipureintro
    exact View.read_writes_eq_canon _ _ _ (coverO1 _)
  iexists f6; isplitr; · ipureintro; rfl
  iexact H6

set_option maxHeartbeats 1000000 in
/-- A point with i = 0: the scratch is stored whole, then read back. -/
theorem run1_first (c : Dev nD) (i : grid1.Coords) (hc : cond1 i) (E : Set ℕ)
    (arg2 : Memref sig .tc .vmem S1x512x4096 .f32) (harg2 : arg2.IsWhole) (arg3 : Memref sig .tc .vmem S1x4096x64 .f32) (harg3 : arg3.IsWhole)
    (arg4 : Memref sig .tc .vmem S1x64x16 .f32) (harg4 : arg4.IsWhole) (arg5 : Memref sig .tc .vmem S1x512x16 .f32) (harg5 : arg5.IsWhole)
    (arg6 : Memref sig .tc .vmem S4096x16 .f32) (harg6 : arg6.IsWhole)
    (xa : Vec F S1x512x4096 .f32) (xh : Vec F S1x4096x64 .f32) (xw : Vec F S1x64x16 .f32) (K : PUnit → sProp 𝕄) :
    iprop(owns (c : Thread nD τ) arg2 fullShare xa ∗ owns (c : Thread nD τ) arg3 fullShare xh ∗ owns (c : Thread nD τ) arg4 fullShare xw
        ∗ (∃ d, owns (c : Thread nD τ) arg5 fullShare d) ∗ (∃ d, owns (c : Thread nD τ) arg6 fullShare d)
        ∗ (iprop(owns (c : Thread nD τ) arg2 fullShare xa ∗ owns (c : Thread nD τ) arg3 fullShare xh ∗ owns (c : Thread nD τ) arg4 fullShare xw
            ∗ owns (c : Thread nD τ) arg5 fullShare (out1 xa (sup1 xh xw)) ∗ owns (c : Thread nD τ) arg6 fullShare (sup1 xh xw)) -∗ K ⟨⟩))
      ⊢ wp frame (wpE (defs₀ (F := F)) Variants.none c none) E (cc1__z_kernel i arg2 harg2 arg3 harg3 arg4 harg4 arg5 harg5 arg6 harg6) K := by
  simp only [cc1__z_kernel_eq_skeleton]; unfold cc1__z_kernel_skel
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2; subst hf3; subst hf4
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverO1 _)]
    sl_unfold_words
    rw [View.readCov_eq_canon _ _ _ (fun j => coverS1 _ _)]
    rfl
  iexists _; isplitr
  swap; · iexact H6
  ipureintro
  exact View.read_writes_eq_canon _ _ _ (coverS1 _)

end Cert.KernelIdeal.Hand

end
-- ==== Proof.KI.Dat1.lean ====
/-
  Region 1 (the second graph convolution and the row normalisation): what each staging buffer and the scratch hold point
  by point, and the body obligation of the pipeline rule.

  As in region 0 the grid is 4 batches of 8 row blocks; the h and W2 windows depend on the batch only, the scratch is
  stored at a batch's first point with h[b] · W2[b] and read at the other seven. After point t the scratch holds the product
  of the h and W2 blocks of the first point of t's batch, and the output buffer holds the rows (adj rows of t) · (that
  product), each divided by its Euclidean length.
-/
import proofs.«129303_j70884140253432_1_alg».proof.Proof.Gen.KernelIdeal.Skeleton
import proofs.«129303_j70884140253432_1_alg».proof.Proof.Gen.KernelIdeal.Launch
import proofs.«129303_j70884140253432_1_alg».proof.Proof.Gen.KernelIdeal.Points
import proofs.«129303_j70884140253432_1_alg».proof.Proof.KI.Body1
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scratch operand: a whole scoped buffer of the kernel's own. -/
abbrev scM1 : Memref sig .tc .vmem S4096x16 .f32 := Memref.whole cc1_scratch0

/-- The branch is taken exactly at the first point of each batch of eight. -/
theorem hcond1 : ∀ t : Fin cfg1.N, cond1 (grid1.coords t) ↔ t.val % 8 = 0 :=
  (by decide +kernel : ∀ t : Fin grid1.N, cond1 (grid1.coords t) ↔ t.val % 8 = 0)

/-- The first point of `t`'s batch. -/
def base1 (t : Fin cfg1.N) : Fin cfg1.N :=
  ⟨8 * (t.val / 8), by have h := t.isLt; have hN : cfg1.N = 32 := N_1; omega⟩

theorem base1_of_first (t : Fin cfg1.N) (h : t.val % 8 = 0) : base1 t = t := Fin.ext (by unfold base1; dsimp only; omega)

theorem base1_pred (t : Fin cfg1.N) (h : ¬t.val % 8 = 0) :
    base1 ⟨t.val - 1, Nat.lt_of_le_of_lt (Nat.sub_le _ _) t.isLt⟩ = base1 t := Fin.ext (by unfold base1; dsimp only; omega)

/-- The core's scoped buffers that are neither a staging buffer of this pipeline nor its scratch, each whole at some
    contents: what the body never touches. -/
def restScoped1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The class invariant with the scratch split off. -/
theorem PhiA1_eq (c : Dev nD) :
    (Pipeline.ΦA spec1 c : sProp 𝕄)
      = iprop(iprop((∃ d, owns (c : Thread nD τ) scM1 fullShare d) ∗ restScoped1 c) ∗ (∃ r, prngReg c r)) := by
  unfold Pipeline.ΦA Pipeline.scopedRest restScoped1
  rw [bigSep_erase (i := cc1_scratch0) (by decide)]
  simp only [scM1, owns_whole]
  rfl

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at their literal types. -/
abbrev ablk1 (c : Dev nD) (t : Fin cfg1.N) : Vec F S1x512x4096 .f32 := iblk1 V c 0 t
abbrev hblk1 (c : Dev nD) (t : Fin cfg1.N) : Vec F S1x4096x64 .f32 := iblk1 V c 1 t
abbrev wblk1 (c : Dev nD) (t : Fin cfg1.N) : Vec F S1x64x16 .f32 := iblk1 V c 2 t

/-- What the scratch holds after point `t`: the support matrix of `t`'s batch. -/
def scr1 (c : Dev nD) (t : Fin cfg1.N) : Vec F S4096x16 .f32 := sup1 (hblk1 V c (base1 t)) (wblk1 V c (base1 t))

/-- What the output buffer holds after point `t`. -/
def res1 (c : Dev nD) (t : Fin cfg1.N) : Vec F S1x512x16 .f32 := out1 (ablk1 V c t) (scr1 V c t)

/-- The region invariant before position `n`: before the first point the class's (every scratch at anything); afterwards the
    scratch at the support matrix of the point before, the other scoped buffers at anything, the generator register. -/
def Phi1 (c : Dev nD) : (n : ℕ) → n ≤ cfg1.N → sProp 𝕄
  | 0, _ => Pipeline.ΦA spec1 c
  | n + 1, hn => iprop(iprop(owns (c : Thread nD τ) scM1 fullShare (scr1 V c ⟨n, hn⟩) ∗ restScoped1 c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1 fullShare (scr1 V c ⟨n, hn⟩) ∗ restScoped1 c) ∗ (∃ r, prngReg c r)) := rfl

theorem Phi1_pos (c : Dev nD) (n : ℕ) (h : n ≤ cfg1.N) (hz : n ≠ 0) :
    Phi1 V c n h = iprop(iprop(owns (c : Thread nD τ) scM1 fullShare (scr1 V c ⟨n - 1, by omega⟩) ∗ restScoped1 c) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => res1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = res1 V c t := by dsimp only [dat1]

/-- Each input's current staging buffer holds its block at every point, fetched there or not: an unfetched window's
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: at a batch's first point the scratch is found at anything and left at this batch's support matrix;
    at the other points it is found at this batch's matrix and left there. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [after1_0, after1_1, after1_2, after1_3]
  unfold res1 scr1
  by_cases h0 : t.val % 8 = 0
  · rw [base1_of_first t h0]
    by_cases hz : t.val = 0
    · rw [Phi1_castSucc V c t, Phi1_zero V c _ _ hz, PhiA1_eq]
      iintro ⟨⟨⟨HS, HR⟩, Hg⟩, Ho, ⟨%d0, H0⟩, ⟨%d1, H1⟩, ⟨%d2, H2⟩, ⟨%d3, H3⟩⟩
      iapply (run1_first c (grid1.coords t) ((hcond1 t).mpr h0) Set.univ _ _ _ _ _ _ _ _ _ _ (iblk1 V c 0 t) (iblk1 V c 1 t) (iblk1 V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Phi1_castSucc V c t, Phi1_pos V c _ _ hz]
      iintro ⟨⟨⟨HS, HR⟩, Hg⟩, Ho, ⟨%d0, H0⟩, ⟨%d1, H1⟩, ⟨%d2, H2⟩, ⟨%d3, H3⟩⟩
      iapply (run1_first c (grid1.coords t) ((hcond1 t).mpr h0) Set.univ _ _ _ _ _ _ _ _ _ _ (iblk1 V c 0 t) (iblk1 V c 1 t) (iblk1 V c 2 t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · have hz : t.val ≠ 0 := fun h => h0 (by rw [h])
    rw [Phi1_castSucc V c t, Phi1_pos V c _ _ hz]
    unfold scr1
    rw [base1_pred t h0]
    iintro ⟨⟨⟨HS, HR⟩, Hg⟩, Ho, ⟨%d0, H0⟩, ⟨%d1, H1⟩, ⟨%d2, H2⟩, ⟨%d3, H3⟩⟩
    iapply (run1_rest c (grid1.coords t) (fun h => h0 ((hcond1 t).mp h)) Set.univ _ _ _ _ _ _ _ _ _ _ (iblk1 V c 0 t) _ _)
    isplitl [H0]; · iexact H0
    isplitl [H3]; · iexists _; iexact H3
    isplitl [HS]; · iexact HS
    iintro ⟨H0, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the class invariant) is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the class invariant back: the scratch's contents are forgotten. -/
theorem hout1 (c : Dev nD) : (dat1 V c).Φ (Fin.last cfg1.N) ⊢ Pipeline.ΦA spec1 c := by
  have hN : cfg1.N = 32 := N_1
  rw [show (dat1 V c).Φ (Fin.last cfg1.N) = Phi1 V c (Fin.last cfg1.N).val (Nat.le_of_lt_succ (Fin.last cfg1.N).isLt) from rfl,
    Phi1_pos V c _ _ (by rw [Fin.val_last]; omega), PhiA1_eq]
  iintro ⟨⟨HS, HR⟩, Hg⟩
  isplitl [HS HR]
  · isplitl [HS]; · iexists _; iexact HS
    iexact HR
  iexact Hg

end Region1

end Cert.KernelIdeal.Hand

end
-- ==== Proof.KI.Body2.lean ====
/-
  Region 2 (the inner-product decoder), the body on any staging memrefs: the block of rows i of z times the transpose
  of the block of rows j of z, stored whole into the output block.
-/
import proofs.«129303_j70884140253432_1_alg».proof.Proof.Gen.KernelIdeal.Skeleton
import proofs.«129303_j70884140253432_1_alg».proof.Proof.Gen.KernelIdeal.Launch
import proofs.«129303_j70884140253432_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rZ2 : Rect S1x1024x16 := Rect.unit (s := S1x1024x16) ![0, 0, 0] S1x1024x16.size inb_S1x1024x16_S1x1024x16_0_0_0
abbrev rO2 : Rect S1x1024x1024 := Rect.unit (s := S1x1024x1024) ![0, 0, 0] S1x1024x1024.size inb_S1x1024x1024_S1x1024x1024_0_0_0

/-- The output block: all inner products of a row of the first block with a row of the second. -/
def out2 (zi : Vec F S1x1024x16 .f32) (zj : Vec F S1x1024x16 .f32) : Vec F S1x1024x1024 .f32 :=
  View.canon [⟨rO2, k2_pay1 (View.ld zi rZ2) (View.ld zj rZ2)⟩]

theorem coverO2 (p0 : Vec F S1x1024x1024 .f32) (y : S1x1024x1024.Idx) :
    ∃ pc ∈ ([⟨rO2, p0⟩] : List (View.Piece (Elt F) S1x1024x1024 .f32)), y ∈ pc.1.set :=
  View.cover_of_tiled [⟨rO2, p0⟩] S1x1024x1024.size (by rfl) y

set_option maxHeartbeats 1000000 in
theorem run2 (c : Dev nD) (i : grid2.Coords) (E : Set ℕ)
    (arg3 : Memref sig .tc .vmem S1x1024x16 .f32) (harg3 : arg3.IsWhole) (arg4 : Memref sig .tc .vmem S1x1024x16 .f32) (harg4 : arg4.IsWhole)
    (arg5 : Memref sig .tc .vmem S1x1024x1024 .f32) (harg5 : arg5.IsWhole)
    (zi : Vec F S1x1024x16 .f32) (zj : Vec F S1x1024x16 .f32) (K : PUnit → sProp 𝕄) :
    iprop(owns (c : Thread nD τ) arg3 fullShare zi ∗ owns (c : Thread nD τ) arg4 fullShare zj ∗ (∃ d, owns (c : Thread nD τ) arg5 fullShare d)
        ∗ (iprop(owns (c : Thread nD τ) arg3 fullShare zi ∗ owns (c : Thread nD τ) arg4 fullShare zj
            ∗ owns (c : Thread nD τ) arg5 fullShare (out2 zi zj)) -∗ K ⟨⟩))
      ⊢ wp frame (wpE (defs₀ (F := F)) Variants.none c none) E (cc2__recon_kernel i arg3 harg3 arg4 harg4 arg5 harg5) K := by
  simp only [cc2__recon_kernel_eq_skeleton]; unfold cc2__recon_kernel_skel
  unfold owns
  iintro ⟨⟨%f3, %hf3, H3⟩, ⟨%f4, %hf4, H4⟩, ⟨%d5, %f5, -, H5⟩, Hk⟩
  subst hf3; subst hf4
  sl_exec
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO2 _)

end Cert.KernelIdeal.Hand

end
-- ==== Proof.KI.Dat2.lean ====
/-
  Region 2 (the inner-product decoder): the proof data and the body obligation.

  The grid is (batch, row block i, row block j); the two input windows read z at blocks (b, i) and (b, j) and are two
  readers of ONE array, each holding it at half the full share; the output block (b, i, j) is stored whole at every point.
  The body keeps nothing between points.
-/
import proofs.«129303_j70884140253432_1_alg».proof.Proof.Gen.KernelIdeal.Skeleton
import proofs.«129303_j70884140253432_1_alg».proof.Proof.Gen.KernelIdeal.Launch
import proofs.«129303_j70884140253432_1_alg».proof.Proof.Gen.KernelIdeal.Points
import proofs.«129303_j70884140253432_1_alg».proof.Proof.KI.Body2
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two input blocks at their literal type. -/
abbrev ziblk2 (c : Dev nD) (t : Fin cfg2.N) : Vec F S1x1024x16 .f32 := iblk2 V c 0 t
abbrev zjblk2 (c : Dev nD) (t : Fin cfg2.N) : Vec F S1x1024x16 .f32 := iblk2 V c 1 t

/-- What the output buffer holds after point `t`. -/
def res2 (c : Dev nD) (t : Fin cfg2.N) : Vec F S1x1024x1024 .f32 := out2 (ziblk2 V c t) (zjblk2 V c t)

/-- The proof data of pipeline 2 on core `c`: the two readers of z each at half the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => res2 V c t
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = res2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  unfold res2
  iintro ⟨HΦ, Ho, ⟨%d0, H0⟩, ⟨%d1, H1⟩, ⟨%d2, H2⟩⟩
  iapply (run2 c (grid2.coords t) Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Run.lean ====
/-
  The launch: @main's three kernel regions composed, and what the final memory holds.

  Between two regions a core holds every unscoped buffer whole at a valuation: the launch memory, then after each region
  the valuation before it updated at that region's result array with what the pipeline's write-backs leave there
  (the proof data's array after the last grid point). Each region is entered by sorting its windows' arrays out of those
  buffers and left by putting them back; region 2's two readers of z take half the full share each and join them at the
  exit. Nothing is owed between regions and the generator register rides along untouched. The run's post names the result
  array and the four argument arrays; the frame claim is its weakening.
-/
import proofs.«129303_j70884140253432_1_alg».proof.Proof.Gen.KernelIdeal.Skeleton
import proofs.«129303_j70884140253432_1_alg».proof.Proof.Gen.KernelIdeal.Launch
import proofs.«129303_j70884140253432_1_alg».proof.Proof.Gen.KernelIdeal.Points
import proofs.«129303_j70884140253432_1_alg».proof.Proof.KI.Dat0
import proofs.«129303_j70884140253432_1_alg».proof.Proof.KI.Dat1
import proofs.«129303_j70884140253432_1_alg».proof.Proof.KI.Dat2
import proofs.«129303_j70884140253432_1_alg».proof.Proof.Gen.KernelIdeal.Regions
import Idealize.ShloMosaic.Lib.Pipeline.RegionsLoop
import Idealize.ShloMosaic.Lib.Pipeline.FrameSuffix
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

section Run

variable (m : (ℓ : Loc nD τ sig) → Buf (Elt F) ℓ) (ρ : Dev nD → PrngReg)

/-! ## The buffers' contents between the regions -/

/-- At launch. -/
abbrev U0 (c : Dev nD) : Valuation τ sig (Elt F) := fun b => m (c, b)
abbrev E0 (c : Dev nD) (b : Ref sig .tc) : Buf (Elt F) ((c : Thread nD τ).loc b) := U0 m c b
/-- What region 0 leaves in the hidden layer's array. -/
def o1 (c : Dev nD) : Buf (Elt F) ((c : Thread nD τ).loc main_v0) := (dat0 (E0 m) c).arrAt 3 cfg0.N
/-- After region 0. -/
abbrev U1 (c : Dev nD) : Valuation τ sig (Elt F) := Function.update (U0 m c) main_v0 (o1 m c)
abbrev E1 (c : Dev nD) (b : Ref sig .tc) : Buf (Elt F) ((c : Thread nD τ).loc b) := U1 m c b
/-- What region 1 leaves in the embedding's array. -/
def o2 (c : Dev nD) : Buf (Elt F) ((c : Thread nD τ).loc main_v1) := (dat1 (E1 m) c).arrAt 3 cfg1.N
/-- After region 1. -/
abbrev U2 (c : Dev nD) : Valuation τ sig (Elt F) := Function.update (U1 m c) main_v1 (o2 m c)
abbrev E2 (c : Dev nD) (b : Ref sig .tc) : Buf (Elt F) ((c : Thread nD τ).loc b) := U2 m c b
/-- What region 2 leaves in the result array. -/
def o3 (c : Dev nD) : Buf (Elt F) ((c : Thread nD τ).loc main_v2) := (dat2 (E2 m) c).arrAt 2 cfg2.N
/-- After region 2. -/
abbrev U3 (c : Dev nD) : Valuation τ sig (Elt F) := Function.update (U2 m c) main_v2 (o3 m c)
abbrev E3 (c : Dev nD) (b : Ref sig .tc) : Buf (Elt F) ((c : Thread nD τ).loc b) := U3 m c b

theorem ne_ref {a b : Ref sig .tc} (h : a ≠ b) : (Proc.devRef .tc a : DevRef τ sig) ≠ Proc.devRef .tc b :=
  StableHlo.devRef_ne_of_ne h

/-! ### Each region's arrays after it, and the buffers it does not touch -/

theorem hF0 (c : Dev nD) (w : Fin cfg0.W) : (dat0 (E0 m) c).arrAt w cfg0.N = E1 m c (Pipeline.arrRef spec0 w) :=
  match w with
  | ⟨0, _⟩ => (((dat0 (E0 m) c).arrAt_in 0 rfl _).trans (A_eq0 (E0 m) c 0)).trans (Function.update_of_ne (ne_ref (by decide)) _ _).symm
  | ⟨1, _⟩ => (((dat0 (E0 m) c).arrAt_in 1 rfl _).trans (A_eq0 (E0 m) c 1)).trans (Function.update_of_ne (ne_ref (by decide)) _ _).symm
  | ⟨2, _⟩ => (((dat0 (E0 m) c).arrAt_in 2 rfl _).trans (A_eq0 (E0 m) c 2)).trans (Function.update_of_ne (ne_ref (by decide)) _ _).symm
  | ⟨3, _⟩ => by
    show o1 m c = Function.update (U0 m c) (Proc.devRef .tc main_v0) (o1 m c) (Proc.devRef .tc main_v0)
    exact (Function.update_self (Proc.devRef .tc main_v0 : DevRef τ sig) (o1 m c) (U0 m c)).symm
theorem hrest0 (c : Dev nD) : ∀ b, b ∉ Finset.univ.image (Pipeline.arrRef spec0) → E1 m c b = E0 m c b := by
  intro b hb
  exact Function.update_of_ne (ne_ref (a := b) (b := main_v0) fun e => hb (by rw [e]; exact Finset.mem_image.mpr ⟨3, Finset.mem_univ _, rfl⟩)) (o1 m c) (U0 m c)

theorem hF1 (c : Dev nD) (w : Fin cfg1.W) : (dat1 (E1 m) c).arrAt w cfg1.N = E2 m c (Pipeline.arrRef spec1 w) :=
  match w with
  | ⟨0, _⟩ => (((dat1 (E1 m) c).arrAt_in 0 rfl _).trans (A_eq1 (E1 m) c 0)).trans (Function.update_of_ne (ne_ref (by decide)) _ _).symm
  | ⟨1, _⟩ => (((dat1 (E1 m) c).arrAt_in 1 rfl _).trans (A_eq1 (E1 m) c 1)).trans (Function.update_of_ne (ne_ref (by decide)) _ _).symm
  | ⟨2, _⟩ => (((dat1 (E1 m) c).arrAt_in 2 rfl _).trans (A_eq1 (E1 m) c 2)).trans (Function.update_of_ne (ne_ref (by decide)) _ _).symm
  | ⟨3, _⟩ => by
    show o2 m c = Function.update (U1 m c) (Proc.devRef .tc main_v1) (o2 m c) (Proc.devRef .tc main_v1)
    exact (Function.update_self (Proc.devRef .tc main_v1 : DevRef τ sig) (o2 m c) (U1 m c)).symm
theorem hrest1 (c : Dev nD) : ∀ b, b ∉ Finset.univ.image (Pipeline.arrRef spec1) → E2 m c b = E1 m c b := by
  intro b hb
  exact Function.update_of_ne (ne_ref (a := b) (b := main_v1) fun e => hb (by rw [e]; exact Finset.mem_image.mpr ⟨3, Finset.mem_univ _, rfl⟩)) (o2 m c) (U1 m c)

theorem hF2 (c : Dev nD) (w : Fin cfg2.W) : (dat2 (E2 m) c).arrAt w cfg2.N = E3 m c (Pipeline.arrRef spec2 w) :=
  match w with
  | ⟨0, _⟩ => (((dat2 (E2 m) c).arrAt_in 0 rfl _).trans (A_eq2 (E2 m) c 0)).trans (Function.update_of_ne (ne_ref (by decide)) _ _).symm
  | ⟨1, _⟩ => (((dat2 (E2 m) c).arrAt_in 1 rfl _).trans (A_eq2 (E2 m) c 1)).trans (Function.update_of_ne (ne_ref (by decide)) _ _).symm
  | ⟨2, _⟩ => by
    show o3 m c = Function.update (U2 m c) (Proc.devRef .tc main_v2) (o3 m c) (Proc.devRef .tc main_v2)
    exact (Function.update_self (Proc.devRef .tc main_v2 : DevRef τ sig) (o3 m c) (U2 m c)).symm
theorem hrest2 (c : Dev nD) : ∀ b, b ∉ Finset.univ.image (Pipeline.arrRef spec2) → E3 m c b = E2 m c b := by
  intro b hb
  exact Function.update_of_ne (ne_ref (a := b) (b := main_v2) fun e => hb (by rw [e]; exact Finset.mem_image.mpr ⟨2, Finset.mem_univ _, rfl⟩)) (o3 m c) (U2 m c)

/-! ## Region 2's arrays: one array read through two windows -/

/-- The buffers behind region 2's windows are z's and the result's. -/
theorem image_arr2 : Finset.univ.image (Pipeline.arrRef spec2) = ({main_v1, main_v2} : Finset (Ref sig .tc)) := by decide

theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v1) ↦{fullShare} V main_v1) ∗ (((c : Thread nD τ).loc main_v2) ↦{fullShare} V main_v2)) := by
  unfold Pipeline.arrBufs
  rw [image_arr2, bigSep_insert (by decide), bigSep_singleton]
  rfl

theorem arrays2_eq (c : Dev nD) (V : (c : Dev nD) → (b : Ref sig .tc) → Buf (Elt F) ((c : Thread nD τ).loc b))
    (G : (w : Fin cfg2.W) → Buf (Elt F) ((cfg2.win w).arr.view.loc (c : Thread nD τ))) :
    ((dat2 V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W2]
  rw [(arr_whole2 0).set_eq_univ, (arr_whole2 2).set_eq_univ]
  rfl

/-- ENTRY: z's buffer at the full share is dealt to its two readers, half each. -/
theorem arrays_of_arrBufs2 (c : Dev nD) (V : (c : Dev nD) → (b : Ref sig .tc) → Buf (Elt F) ((c : Thread nD τ).loc b)) :
    (Pipeline.arrBufs (Ix := Unit) (Name := ℕ) (U := UR sig nD τ) (Lvl := ℕ) spec2 c (V c) : sProp 𝕄) ⊢ (dat2 V c).arrays (dat2 V c).A := by
  rw [arrBufs2_eq, arrays2_eq]
  iintro ⟨H1, H2⟩
  ihave H1 := (pointsTo_share (PosShare.mem_left_op_right fullShare)).1 $$ H1
  icases H1 with ⟨Ha, Hb⟩
  isplitl [Ha]; · iexact Ha
  isplitl [Hb]; · iexact Hb
  iexact H2

/-- EXIT: the two halves of z's buffer, both still at what the region found, join; the result array holds what the
    write-backs left. -/
theorem arrBufs_of_arrays2 (c : Dev nD) (V V' : (c : Dev nD) → (b : Ref sig .tc) → Buf (Elt F) ((c : Thread nD τ).loc b))
    (hF : ∀ w, (dat2 V c).arrAt w cfg2.N = V' c (Pipeline.arrRef spec2 w)) :
    ((dat2 V c).arrays ((dat2 V c).arrAt · cfg2.N) : sProp 𝕄)
      ⊢ Pipeline.arrBufs (Ix := Unit) (Name := ℕ) (U := UR sig nD τ) (Lvl := ℕ) spec2 c (V' c) := by
  rw [arrBufs2_eq, arrays2_eq]
  rw [hF 0, hF 1, hF 2]
  iintro ⟨Ha, Hb, H2⟩
  isplitl [Ha Hb]
  · iapply (pointsTo_share (PosShare.mem_left_op_right fullShare)).2
    isplitl [Ha]; · iexact Ha
    iexact Hb
  iexact H2

/-! ## The proof data family and the thread state -/

/-- Every pipeline's proof data, each at its region's entry contents: a literal match on the pipeline. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the generator register at some state, nothing owed. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0: entered from every unscoped buffer at the launch contents, left at `U1`. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (E0 m) c)
    unfold Pipeline.ΦA
    iintro ⟨Hp, -, Hr⟩
    isplitl [Hr]; · iexact Hr
    iexact Hp
  hout c := by
    rw [Pipeline.ownSems0_none]
    refine (hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from `U1`, left at `U2`. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (E1 m) c)
    unfold Pipeline.ΦA
    iintro ⟨Hp, -, Hr⟩
    isplitl [Hr]; · iexact Hr
    iexact Hp
  hout c := by
    rw [Pipeline.ownSems0_none]
    refine (hout1 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2: entered from `U2`, left at `U3`; z's buffer dealt to the two windows that read it. -/
def reg2 : RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (U2 m c) ∗ R c)
  post c := iprop(iprop(StableHlo.held (c : Thread nD τ) (Pipeline.ucRefs τ sig) (U3 m c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hub := Pipeline.unscopedBufs_split₀ (cfgs := cfgs) (p := 2) (Ix := Unit) (Name := ℕ) (U := UR sig nD τ) (Lvl := ℕ) winFacts₀2.arr_unscoped c (E2 m c)
    rw [Pipeline.unscopedBufs_held] at hub
    have hsplit : (StableHlo.held (c : Thread nD τ) (Pipeline.ucRefs τ sig) (U2 m c) : sProp 𝕄)
        ⊢ iprop((pdats m 2 c).arrays (pdats m 2 c).A ∗ Pipeline.unscopedRest spec2 c (E2 m c)) := by
      rw [hub]; exact BIClass.sep_mono (arrays_of_arrBufs2 c (E2 m)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hub := Pipeline.unscopedBufs_split₀ (cfgs := cfgs) (p := 2) (Ix := Unit) (Name := ℕ) (U := UR sig nD τ) (Lvl := ℕ) winFacts₀2.arr_unscoped c (E3 m c)
    rw [Pipeline.unscopedBufs_held] at hub
    have hrest : (Pipeline.unscopedRest (Ix := Unit) (Name := ℕ) (U := UR sig nD τ) (Lvl := ℕ) spec2 c (E2 m c) : sProp 𝕄)
        = Pipeline.unscopedRest spec2 c (E3 m c) := by
      unfold Pipeline.unscopedRest
      exact bigSep_congr fun b hb => by rw [hrest2 m c b (Finset.mem_sdiff.mp hb).2]
    have hjoin : iprop((pdats m 2 c).arrays ((pdats m 2 c).arrAt · cfg2.N) ∗ Pipeline.unscopedRest (Ix := Unit) (Name := ℕ) (U := UR sig nD τ) (Lvl := ℕ) spec2 c (E2 m c))
        ⊢ (StableHlo.held (c : Thread nD τ) (Pipeline.ucRefs τ sig) (U3 m c) : sProp 𝕄) := by
      rw [hub]; exact BIClass.sep_mono (arrBufs_of_arrays2 c (E2 m) (E3 m) (hF2 m c)) (Entails.of_eq hrest)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its three regions, and the run -/

abbrev segs : List (Seg (pcfgs (F := F)) Gen.adm (pdats m) () defs₀ 𝒱₀ L lv) :=
  [.region (reg0 m), .region (reg1 m), .region (reg2 m)]

theorem main_run (c : Dev nD) : main (F := F) c = Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last valuation at the result array is what region 2 left there; -/
theorem U3_res (c : Dev nD) : U3 m c (Proc.devRef .tc main_v2) = o3 m c :=
  Function.update_self (Proc.devRef .tc main_v2 : DevRef τ sig) (o3 m c) (U2 m c)
/-- at a buffer no region writes it is the launch memory. -/
theorem U3_arg (c : Dev nD) (b : Ref sig .tc) (h0 : b ≠ main_v0) (h1 : b ≠ main_v1) (h2 : b ≠ main_v2) :
    U3 m c (Proc.devRef .tc b) = m ((c : Thread nD τ).loc b) :=
  (Function.update_of_ne (ne_ref h2) (o3 m c) (U2 m c)).trans <|
    (Function.update_of_ne (ne_ref h1) (o2 m c) (U1 m c)).trans <| (Function.update_of_ne (ne_ref h0) (o1 m c) (U0 m c)).trans rfl

set_option backward.isDefEq.respectTransparency.types false in
/-- THE RUN: from any memory with zero counters every weakly fair execution of @main terminates, nothing faulting, with the
    result array at what region 2's write-backs leave and the four argument arrays as launched. -/
theorem run_main : θ_run defs (onTc (τ := τ) (main (F := F))) ⟨m, fun _ => 0, ρ⟩ (fun r => ∀ c : Dev nD,
      r.2.mem ((c.tc : Thread nD τ).loc main_v2) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) Gen.adm (pdats m) () cellOf_inj emb₁ defs₀ 𝒱₀ L lv m ρ main (segs m)
    (fun c Q => by rw [main_run m c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c))
    (Tₙ := fun c => iprop(StableHlo.held (c : Thread nD τ) (Pipeline.ucRefs τ sig) (U3 m c) ∗ ∃ r, prngReg c r))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m c b)
    (hfin := fun c s' => by
      iintro ⟨⟨Hh, -⟩, HSI⟩
      unfold StableHlo.held
      imodintro
      iapply (pointsTo_read_all (Pipeline.ucRefs τ sig) (fun b => (((c : Thread nD τ)).1, b)) (U3 m c) s')
      isplitl [Hh] <;> iassumption)
    (hQ := fun s h c =>
      ⟨(h c _ (mem_uc main_v2 (by decide))).trans (U3_res m c),
       (h c _ (mem_uc main_arg0 (by decide))).trans (U3_arg m c main_arg0 (by decide) (by decide) (by decide)),
       (h c _ (mem_uc main_arg1 (by decide))).trans (U3_arg m c main_arg1 (by decide) (by decide) (by decide)),
       (h c _ (mem_uc main_arg2 (by decide))).trans (U3_arg m c main_arg2 (by decide) (by decide) (by decide)),
       (h c _ (mem_uc main_arg3 (by decide))).trans (U3_arg m c main_arg3 (by decide) (by decide) (by decide))⟩)

/-- THE FRAME: the run's post read at the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Run

end Cert.KernelIdeal.Hand

end
-- ==== Proof.KI.Pay0.lean ====
/-
  The matrix products of the three kernel bodies read at an index, over the extended reals: each is the plain sum over the
  contracted axis of the operands' products (a product into a zero accumulator adds nothing), the blocks' leading unit axis
  dropped; region 0's output keeps the positive part.
-/
import proofs.«129303_j70884140253432_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Cert.KernelIdeal Cert.KernelIdeal.Gen

/-! ## Region 0's support product: rows against columns

The product's record has no batch axis; it contracts axis 1 of the left operand against axis 0 of the right. At the output
index (i₀, i₁) and contraction coordinate q the left operand is read at (i₀, q) and the right at (q, i₁). -/

theorem lhs_sup0_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhs_sup0_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhs_sup0_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhs_sup0_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The support matrix of region 0 at (n, h): the row n of the x block against the column h of the W1 block. -/
theorem pay_sup0 (xx : Vec Ideal S1x4096x128 .f32) (xw : Vec Ideal S1x128x64 .f32) (n : Fin 4096) (h : Fin 64) :
    k0_pay1 (F := Ideal) xx xw (ix2 n h) = ∑ f : Fin 128, xx (ix3 (0 : Fin 1) n f) * xw (ix3 (0 : Fin 1) f h) := by
  unfold k0_pay1
  rw [shapeCast_self]
  simp only [matmul]
  rw [Ideal.matmul_constant_zero_apply, ← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 n h) ((contrEquiv1 dot_S4096x128_S128x64_S4096x64_1_0_0_1_n_n 128 rfl rfl).symm k) = ix2 n k := funext fun a => Fin.ext (by
    match a with
    | ⟨0, _⟩ => exact lhs_sup0_0 _ _
    | ⟨1, _⟩ => exact (lhs_sup0_1 _ _).trans hk)
  have er : dot_S4096x128_S128x64_S4096x64_1_0_0_1_n_n.rhsIdx (ix2 n h) ((contrEquiv1 dot_S4096x128_S128x64_S4096x64_1_0_0_1_n_n 128 rfl rfl).symm k) = ix2 k h := funext fun a => Fin.ext (by
    match a with
    | ⟨0, _⟩ => exact (rhs_sup0_0 _ _).trans hk
    | ⟨1, _⟩ => exact rhs_sup0_1 _ _)
  rw [el, er, shapeCast_1ab_ab_apply, shapeCast_1ab_ab_apply]

/-! ## Region 0's output product: rows against columns, then the positive part

The same dimension numbers at the shapes [512, 4096] × [4096, 64]: left at (i₀, q), right at (q, i₁). The maximum is
taken against the splat of the word of all zero bits, which denotes the extended real 0. -/

theorem lhs_out0_0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem lhs_out0_1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem rhs_out0_0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem rhs_out0_1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- Region 0's output block at (r, h): the positive part of the row r of the adjacency block against the column h of
    the scratch. -/
theorem pay_out0 (xa : Vec Ideal S1x512x4096 .f32) (s : Vec Ideal S4096x64 .f32) (r : Fin 512) (h : Fin 64) :
    k0_pay2 (F := Ideal) xa s (ix3 (0 : Fin 1) r h) = max (∑ n : Fin 4096, xa (ix3 (0 : Fin 1) r n) * s (ix2 n h)) 0 := by
  unfold k0_pay2
  refine (shapeCast_ab_1ab_apply _ _ _ _ _).trans ?_
  rw [maximumf_apply, broadcast_apply]
  show max _ (Ideal.ofBits .f32 0x00000000#32) = _
  rw [Ideal.ofBits_zero_f32]
  refine congrArg (max · 0) ?_
  simp only [matmul]
  rw [Ideal.matmul_constant_zero_apply, ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 r h) ((contrEquiv1 dot_S512x4096_S4096x64_S512x64_1_0_0_1_n_n 4096 rfl rfl).symm k) = ix2 r k := funext fun a => Fin.ext (by
    match a with
    | ⟨0, _⟩ => exact lhs_out0_0 _ _
    | ⟨1, _⟩ => exact (lhs_out0_1 _ _).trans hk)
  have er : dot_S512x4096_S4096x64_S512x64_1_0_0_1_n_n.rhsIdx (ix2 r h) ((contrEquiv1 dot_S512x4096_S4096x64_S512x64_1_0_0_1_n_n 4096 rfl rfl).symm k) = ix2 k h := funext fun a => Fin.ext (by
    match a with
    | ⟨0, _⟩ => exact (rhs_out0_0 _ _).trans hk
    | ⟨1, _⟩ => exact rhs_out0_1 _ _)
  rw [el, er, shapeCast_1ab_ab_apply]

/-! ## Region 2's product: rows against rows

The record contracts axis 1 of both operands: at the output index (i₀, i₁) and contraction coordinate q the left operand is
read at (i₀, q) and the right at (i₁, q). -/

theorem lhs_out2_0 (i : S1024x1024.Idx) (q : dot_S1024x16_S1024x16_S1024x1024_1_1_0_0_n_n.contr.Idx) :
    (dot_S1024x16_S1024x16_S1024x1024_1_1_0_0_n_n.lhsIdx i q 0).val = (i 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem lhs_out2_1 (i : S1024x1024.Idx) (q : dot_S1024x16_S1024x16_S1024x1024_1_1_0_0_n_n.contr.Idx) :
    (dot_S1024x16_S1024x16_S1024x1024_1_1_0_0_n_n.lhsIdx i q 1).val = (q ⟨0, by decide⟩).val :=
  dot_S1024x16_S1024x16_S1024x1024_1_1_0_0_n_n.lhsIdx_val_of_single rfl i q
theorem rhs_out2_0 (i : S1024x1024.Idx) (q : dot_S1024x16_S1024x16_S1024x1024_1_1_0_0_n_n.contr.Idx) :
    (dot_S1024x16_S1024x16_S1024x1024_1_1_0_0_n_n.rhsIdx i q 0).val = (i 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem rhs_out2_1 (i : S1024x1024.Idx) (q : dot_S1024x16_S1024x16_S1024x1024_1_1_0_0_n_n.contr.Idx) :
    (dot_S1024x16_S1024x16_S1024x1024_1_1_0_0_n_n.rhsIdx i q 1).val = (q ⟨0, by decide⟩).val :=
  dot_S1024x16_S1024x16_S1024x1024_1_1_0_0_n_n.rhsIdx_val_of_single rfl i q

/-- Region 2's output block at (p, q): the inner product of row p of the first block with row q of the second. -/
theorem pay_out2 (zi zj : Vec Ideal S1x1024x16 .f32) (p q : Fin 1024) :
    k2_pay1 (F := Ideal) zi zj (ix3 (0 : Fin 1) p q) = ∑ d : Fin 16, zi (ix3 (0 : Fin 1) p d) * zj (ix3 (0 : Fin 1) q d) := by
  unfold k2_pay1
  refine (shapeCast_ab_1ab_apply _ _ _ _ _).trans ?_
  simp only [matmul]
  rw [Ideal.matmul_constant_zero_apply, ← Equiv.sum_comp (contrEquiv1 dot_S1024x16_S1024x16_S1024x1024_1_1_0_0_n_n 16 rfl rfl).symm]
  refine Finset.sum_congr rfl fun k _ => ?_
  have hk := contrEquiv1_symm_val dot_S1024x16_S1024x16_S1024x1024_1_1_0_0_n_n 16 rfl rfl k
  have el : dot_S1024x16_S1024x16_S1024x1024_1_1_0_0_n_n.lhsIdx (ix2 p q) ((contrEquiv1 dot_S1024x16_S1024x16_S1024x1024_1_1_0_0_n_n 16 rfl rfl).symm k) = ix2 p k := funext fun a => Fin.ext (by
    match a with
    | ⟨0, _⟩ => exact lhs_out2_0 _ _
    | ⟨1, _⟩ => exact (lhs_out2_1 _ _).trans hk)
  have er : dot_S1024x16_S1024x16_S1024x1024_1_1_0_0_n_n.rhsIdx (ix2 p q) ((contrEquiv1 dot_S1024x16_S1024x16_S1024x1024_1_1_0_0_n_n 16 rfl rfl).symm k) = ix2 q k := funext fun a => Fin.ext (by
    match a with
    | ⟨0, _⟩ => exact rhs_out2_0 _ _
    | ⟨1, _⟩ => exact (rhs_out2_1 _ _).trans hk)
  rw [el, er, shapeCast_1ab_ab_apply, shapeCast_1ab_ab_apply]

end Cert.KernelIdeal.Hand

end
-- ==== Proof.KI.Val0.lean ====
/-
  Region 0's result array over the extended reals: after the last grid point the array written back block by block holds,
  at (b, r, h), the positive part of  Σ_n adj[b, r, n] · (Σ_f x[b, n, f] · W1[b, f, h])  — the reference's hidden layer.
-/
import proofs.«129303_j70884140253432_1_alg».proof.Proof.KI.Dat0
import proofs.«129303_j70884140253432_1_alg».proof.Proof.KI.Pay0
import proofs.«129303_j70884140253432_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

theorem offs3_zero : (![0, 0, 0] : Fin 3 → Nat) = fun _ => 0 := funext fun a => by fin_cases a <;> rfl
theorem offs2_zero : (![0, 0] : Fin 2 → Nat) = fun _ => 0 := funext fun a => by fin_cases a <;> rfl

/-- The four index maps over the grid: point t = 8·b + i has batch b = t / 8 and row block i = t % 8. -/
theorem idx_facts0 : ∀ t : Fin cfg0.N,
      win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, _)

/-- The adjacency block of point t holds rows 512·(t % 8) … of batch t / 8. -/
theorem ablk0_at (V : (c : Dev nD) → (b : Ref sig .tc) → Buf (Elt Ideal) ((c : Thread nD τ).loc b)) (c : Dev nD)
    (t : Fin cfg0.N) (r : Fin 512) (n : Fin 4096) (b : Fin 4) (ρ : Fin 4096)
    (hb : b.val = t.val / 8) (hρ : ρ.val = (t.val % 8) * 512 + r.val) :
    ablk0 (F := Ideal) V c t (ix3 (0 : Fin 1) r n) = V c main_arg1 (ix3 b ρ n) := by
  obtain ⟨e0, e1, e2, -⟩ := idx_facts0 t
  show V c main_arg1 (((cfg0.win 0).blk t).view.emb (ix3 (0 : Fin 1) r n)) = V c main_arg1 (ix3 b ρ n)
  refine congrArg _ (funext fun a => Fin.ext ?_)
  match a with
  | ⟨0, _⟩ => show win0_0.index t (0 : Fin 3) * 1 + 1 * (0 : Fin 1).val = b.val; rw [e0, hb]; simp
  | ⟨1, _⟩ => show win0_0.index t (1 : Fin 3) * 512 + 1 * r.val = ρ.val; rw [e1, hρ]; omega
  | ⟨2, _⟩ => show win0_0.index t (2 : Fin 3) * 4096 + 1 * n.val = n.val; rw [e2]; omega

/-- The x block of point t is all of batch t / 8. -/
theorem xblk0_at (V : (c : Dev nD) → (b : Ref sig .tc) → Buf (Elt Ideal) ((c : Thread nD τ).loc b)) (c : Dev nD)
    (t : Fin cfg0.N) (n : Fin 4096) (f : Fin 128) (b : Fin 4) (hb : b.val = t.val / 8) :
    xblk0 (F := Ideal) V c t (ix3 (0 : Fin 1) n f) = V c main_arg0 (ix3 b n f) := by
  obtain ⟨-, -, -, e0, e1, e2, -⟩ := idx_facts0 t
  show V c main_arg0 (((cfg0.win 1).blk t).view.emb (ix3 (0 : Fin 1) n f)) = V c main_arg0 (ix3 b n f)
  refine congrArg _ (funext fun a => Fin.ext ?_)
  match a with
  | ⟨0, _⟩ => show win0_1.index t (0 : Fin 3) * 1 + 1 * (0 : Fin 1).val = b.val; rw [e0, hb]; simp
  | ⟨1, _⟩ => show win0_1.index t (1 : Fin 3) * 4096 + 1 * n.val = n.val; rw [e1]; omega
  | ⟨2, _⟩ => show win0_1.index t (2 : Fin 3) * 128 + 1 * f.val = f.val; rw [e2]; omega

/-- The W1 block of point t is all of batch t / 8. -/
theorem wblk0_at (V : (c : Dev nD) → (b : Ref sig .tc) → Buf (Elt Ideal) ((c : Thread nD τ).loc b)) (c : Dev nD)
    (t : Fin cfg0.N) (f : Fin 128) (h : Fin 64) (b : Fin 4) (hb : b.val = t.val / 8) :
    wblk0 (F := Ideal) V c t (ix3 (0 : Fin 1) f h) = V c main_arg2 (ix3 b f h) := by
  obtain ⟨-, -, -, -, -, -, e0, e1, e2, -⟩ := idx_facts0 t
  show V c main_arg2 (((cfg0.win 2).blk t).view.emb (ix3 (0 : Fin 1) f h)) = V c main_arg2 (ix3 b f h)
  refine congrArg _ (funext fun a => Fin.ext ?_)
  match a with
  | ⟨0, _⟩ => show win0_2.index t (0 : Fin 3) * 1 + 1 * (0 : Fin 1).val = b.val; rw [e0, hb]; simp
  | ⟨1, _⟩ => show win0_2.index t (1 : Fin 3) * 128 + 1 * f.val = f.val; rw [e1]; omega
  | ⟨2, _⟩ => show win0_2.index t (2 : Fin 3) * 64 + 1 * h.val = h.val; rw [e2]; omega

/-- The first point of a batch is in that batch. -/
theorem base0_batch (t : Fin cfg0.N) : (base0 t).val / 8 = t.val / 8 := by
  unfold base0; dsimp only; omega

/-- One element of the output block: with the three operand blocks read off batch b of the arrays and the adjacency
    block's row r the array's row ρ, the block's (r, h) is the reference's hidden layer at (b, ρ, h). -/
theorem out0_at (x : (⟨S4x4096x128, .f32⟩ : BufTy).Contents (Elt Ideal)) (adj : (⟨S4x4096x4096, .f32⟩ : BufTy).Contents (Elt Ideal))
    (w1 : (⟨S4x128x64, .f32⟩ : BufTy).Contents (Elt Ideal))
    (xa : Vec Ideal S1x512x4096 .f32) (xx : Vec Ideal S1x4096x128 .f32) (xw : Vec Ideal S1x128x64 .f32)
    (b : Fin 4) (ρ : Fin 4096) (r : Fin 512) (h : Fin 64)
    (hxa : ∀ n : Fin 4096, xa (ix3 (0 : Fin 1) r n) = adj (ix3 b ρ n))
    (hxx : ∀ (n : Fin 4096) (f : Fin 128), xx (ix3 (0 : Fin 1) n f) = x (ix3 b n f))
    (hxw : ∀ f : Fin 128, xw (ix3 (0 : Fin 1) f h) = w1 (ix3 b f h)) :
    out0 xa (sup0 xx xw) (ix3 (0 : Fin 1) r h) = Cert.ReferenceIdeal.Read.val_main_v2 (F := Ideal) x adj w1 (ix3 b ρ h) := by
  unfold out0 sup0
  rw [View.canon_unit_zero offs3_zero, View.canon_unit_zero offs2_zero]
  simp only [View.ld_unit_zero (S := S1x512x4096) offs3_zero, View.ld_unit_zero (S := S1x4096x128) offs3_zero,
    View.ld_unit_zero (S := S1x128x64) offs3_zero, View.ld_unit_zero (S := S4096x64) offs2_zero]
  rw [pay_out0]
  simp only [pay_sup0]
  rw [Cert.ReferenceIdeal.Read.val_main_v2_apply, Cert.ReferenceIdeal.Read.val_main_v1_apply,
    Cert.ReferenceIdeal.Read.val_main_call0_v0_apply, Cert.ReferenceIdeal.Read.val_main_call0_cst_apply]
  simp only [Cert.ReferenceIdeal.Read.val_main_v0_apply]
  have el1 : ∀ n : Fin 4096, Cert.ReferenceIdeal.Read.lidx_main_v1 (ix3 b ρ h) n = ix3 b ρ n := fun n =>
    funext fun a => Fin.ext (by match a with | ⟨0, _⟩ => rfl | ⟨1, _⟩ => rfl | ⟨2, _⟩ => rfl)
  have el0 : ∀ (n : Fin 4096) (f : Fin 128),
      Cert.ReferenceIdeal.Read.lidx_main_v0 (Cert.ReferenceIdeal.Read.ridx_main_v1 (ix3 b ρ h) n) f = ix3 b n f := fun n f =>
    funext fun a => Fin.ext (by match a with | ⟨0, _⟩ => rfl | ⟨1, _⟩ => rfl | ⟨2, _⟩ => rfl)
  have er0 : ∀ (n : Fin 4096) (f : Fin 128),
      Cert.ReferenceIdeal.Read.ridx_main_v0 (Cert.ReferenceIdeal.Read.ridx_main_v1 (ix3 b ρ h) n) f = ix3 b f h := fun n f =>
    funext fun a => Fin.ext (by match a with | ⟨0, _⟩ => rfl | ⟨1, _⟩ => rfl | ⟨2, _⟩ => rfl)
  simp only [el1, el0, er0, hxa, hxx, hxw]
  show max _ 0 = max _ (Ideal.ofBits .f32 0x00000000#32)
  rw [Ideal.ofBits_zero_f32]

/-- The output buffer after point t, at (r, h): the hidden layer at the array index the block's (r, h) sits at. -/
theorem res0_at (V : (c : Dev nD) → (b : Ref sig .tc) → Buf (Elt Ideal) ((c : Thread nD τ).loc b)) (c : Dev nD)
    (x : (⟨S4x4096x128, .f32⟩ : BufTy).Contents (Elt Ideal)) (adj : (⟨S4x4096x4096, .f32⟩ : BufTy).Contents (Elt Ideal))
    (w1 : (⟨S4x128x64, .f32⟩ : BufTy).Contents (Elt Ideal))
    (hx : V c main_arg0 = x) (ha : V c main_arg1 = adj) (hw : V c main_arg2 = w1) (t : Fin cfg0.N) (r : Fin 512) (h : Fin 64) :
    res0 (F := Ideal) V c t (ix3 (0 : Fin 1) r h)
      = Cert.ReferenceIdeal.Read.val_main_v2 (F := Ideal) x adj w1 (((cfg0.win 3).blk t).view.emb (ix3 (0 : Fin 1) r h)) := by
  obtain ⟨-, -, -, -, -, -, -, -, -, e0, e1, e2⟩ := idx_facts0 t
  have hN : cfg0.N = 32 := N_0
  have ht : t.val < 32 := by have := t.isLt; omega
  have hr : r.val < 512 := r.isLt
  have hb : t.val / 8 < 4 := by omega
  have hρ : (t.val % 8) * 512 + r.val < 4096 := by omega
  have hemb : ((cfg0.win 3).blk t).view.emb (ix3 (0 : Fin 1) r h)
      = ix3 (⟨t.val / 8, hb⟩ : Fin 4) (⟨(t.val % 8) * 512 + r.val, hρ⟩ : Fin 4096) h :=
    funext fun a => Fin.ext (by
      match a with
      | ⟨0, _⟩ => show win0_3.index t (0 : Fin 3) * 1 + 1 * (0 : Fin 1).val = t.val / 8; rw [e0]; simp
      | ⟨1, _⟩ => show win0_3.index t (1 : Fin 3) * 512 + 1 * r.val = (t.val % 8) * 512 + r.val; rw [e1]; omega
      | ⟨2, _⟩ => show win0_3.index t (2 : Fin 3) * 64 + 1 * h.val = h.val; rw [e2]; omega)
  rw [hemb]
  unfold res0 scr0
  exact out0_at x adj w1 (ablk0 V c t) (xblk0 V c (base0 t)) (wblk0 V c (base0 t)) ⟨t.val / 8, hb⟩ ⟨(t.val % 8) * 512 + r.val, hρ⟩ r h
    (fun n => (ablk0_at V c t r n _ _ rfl rfl).trans (congrFun ha _))
    (fun n f => (xblk0_at V c (base0 t) n f ⟨t.val / 8, hb⟩ (base0_batch t).symm).trans (congrFun hx _))
    (fun f => (wblk0_at V c (base0 t) f h ⟨t.val / 8, hb⟩ (base0_batch t).symm).trans (congrFun hw _))

/-- What point t writes back is its block of the hidden layer. -/
theorem flushed0_eq (V : (c : Dev nD) → (b : Ref sig .tc) → Buf (Elt Ideal) ((c : Thread nD τ).loc b)) (c : Dev nD)
    (x : (⟨S4x4096x128, .f32⟩ : BufTy).Contents (Elt Ideal)) (adj : (⟨S4x4096x4096, .f32⟩ : BufTy).Contents (Elt Ideal))
    (w1 : (⟨S4x128x64, .f32⟩ : BufTy).Contents (Elt Ideal))
    (hx : V c main_arg0 = x) (ha : V c main_arg1 = adj) (hw : V c main_arg2 = w1) (t : Fin cfg0.N) :
    (dat0 (F := Ideal) V c).flushed 3 t
      = ((cfg0.win 3).blk t).view.read (Elt Ideal) (Cert.ReferenceIdeal.Read.val_main_v2 (F := Ideal) x adj w1) := by
  show (cfg0.win 3).cut (grid0.coords t) ((dat0 V c).after 3 t) = _
  rw [after0_3]
  have key : ∀ j : S1x512x64.Idx, res0 (F := Ideal) V c t j
      = Cert.ReferenceIdeal.Read.val_main_v2 (F := Ideal) x adj w1 (((cfg0.win 3).blk t).view.emb j) := fun j => by
    obtain ⟨j0, r, h, rfl⟩ : ∃ (j0 : Fin 1) (r : Fin 512) (h : Fin 64), j = ix3 j0 r h := ⟨j 0, j 1, j 2, eq_ix3 j⟩
    obtain rfl : j0 = 0 := Subsingleton.elim _ _
    exact res0_at V c x adj w1 hx ha hw t r h
  funext j
  exact key j

/-- An index of the array is in point t's block iff each coordinate is in the block's range on its axis. -/
theorem mem_blk0 (t : Fin cfg0.N) (i : S4x4096x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v0).slice (win0_3.rect t)).set ↔ _
  rw [View.set_slice_whole, Rect.mem_set_unit]
  exact Iff.rfl

/-- Every index (b, ρ, h) of the array is in the block of the point 8·b + ρ / 512. -/
theorem cover0 (i : S4x4096x64.Idx) : ∃ t : Fin cfg0.N, (cfg0.win 3).flush t = true ∧ i ∈ ((cfg0.win 3).blk t).view.set := by
  have hN : cfg0.N = 32 := N_0
  have hi0 : (i 0).val < 4 := (i 0).isLt
  have hi1 : (i 1).val < 4096 := (i 1).isLt
  have hi2 : (i 2).val < 64 := (i 2).isLt
  obtain ⟨t, htv⟩ : ∃ t : Fin cfg0.N, t.val = 8 * (i 0).val + (i 1).val / 512 := ⟨⟨8 * (i 0).val + (i 1).val / 512, by omega⟩, rfl⟩
  obtain ⟨-, -, -, -, -, -, -, -, -, e0, e1, e2⟩ := idx_facts0 t
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 512 ≤ (i 1).val ∧ (i 1).val < win0_3.index t (1 : Fin 3) * 512 + 512; rw [e1]; omega
  | ⟨2, _⟩ => show win0_3.index t (2 : Fin 3) * 64 ≤ (i 2).val ∧ (i 2).val < win0_3.index t (2 : Fin 3) * 64 + 64; rw [e2]; omega

/-- What region 0 leaves in its result array, from what it finds in x, adj and W1. -/
theorem reg0_value (V : (c : Dev nD) → (b : Ref sig .tc) → Buf (Elt Ideal) ((c : Thread nD τ).loc b)) (c : Dev nD)
    (x : (⟨S4x4096x128, .f32⟩ : BufTy).Contents (Elt Ideal)) (adj : (⟨S4x4096x4096, .f32⟩ : BufTy).Contents (Elt Ideal))
    (w1 : (⟨S4x128x64, .f32⟩ : BufTy).Contents (Elt Ideal))
    (hx : V c main_arg0 = x) (ha : V c main_arg1 = adj) (hw : V c main_arg2 = w1) :
    (dat0 (F := Ideal) V c).arrAt 3 cfg0.N = Cert.ReferenceIdeal.Read.val_main_v2 (F := Ideal) x adj w1 := by
  exact (dat0 (F := Ideal) V c).arrAt_eq_of_cover 3 (Cert.ReferenceIdeal.Read.val_main_v2 (F := Ideal) x adj w1)
    (fun t _ => flushed0_eq V c x adj w1 hx ha hw t) cover0

end Cert.KernelIdeal.Hand

end
-- ==== Proof.KI.Pay1.lean ====
/-
  Region 1's two payloads read at an index, over the extended reals: the support matrix h·W2 as a plain sum, and the
  output block — the adjacency rows against the scratch, each row divided by the square root of its sum of squares.
-/
import proofs.«129303_j70884140253432_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Cert.KernelIdeal Cert.KernelIdeal.Gen

namespace Pay1

/-! ## The support matrix: a [4096, 64] by [64, 16] product into zeros -/

theorem lhs_sup_0 (i : S4096x16.Idx) (q : dot_S4096x64_S64x16_S4096x16_1_0_0_1_n_n.contr.Idx) :
    (dot_S4096x64_S64x16_S4096x16_1_0_0_1_n_n.lhsIdx i q 0).val = (i 0).val := by
  unfold DotDims.lhsIdx
  rw [dif_neg (show ¬(0 : Fin S4096x64.rank) ∈ dot_S4096x64_S64x16_S4096x16_1_0_0_1_n_n.lhsBatch by decide), dif_pos (show (0 : Fin S4096x64.rank) ∈ dot_S4096x64_S64x16_S4096x16_1_0_0_1_n_n.lhsNonContracting by decide)]
  rfl
theorem lhs_sup_1 (i : S4096x16.Idx) (q : dot_S4096x64_S64x16_S4096x16_1_0_0_1_n_n.contr.Idx) :
    (dot_S4096x64_S64x16_S4096x16_1_0_0_1_n_n.lhsIdx i q 1).val = (q ⟨0, by decide⟩).val :=
  dot_S4096x64_S64x16_S4096x16_1_0_0_1_n_n.lhsIdx_val_of_single rfl i q
theorem rhs_sup_0 (i : S4096x16.Idx) (q : dot_S4096x64_S64x16_S4096x16_1_0_0_1_n_n.contr.Idx) :
    (dot_S4096x64_S64x16_S4096x16_1_0_0_1_n_n.rhsIdx i q 0).val = (q ⟨0, by decide⟩).val :=
  dot_S4096x64_S64x16_S4096x16_1_0_0_1_n_n.rhsIdx_val_of_single rfl i q
theorem rhs_sup_1 (i : S4096x16.Idx) (q : dot_S4096x64_S64x16_S4096x16_1_0_0_1_n_n.contr.Idx) :
    (dot_S4096x64_S64x16_S4096x16_1_0_0_1_n_n.rhsIdx i q 1).val = (i 1).val := by
  unfold DotDims.rhsIdx
  rw [dif_neg (show ¬(1 : Fin S64x16.rank) ∈ dot_S4096x64_S64x16_S4096x16_1_0_0_1_n_n.rhsBatch by decide), dif_pos (show (1 : Fin S64x16.rank) ∈ dot_S4096x64_S64x16_S4096x16_1_0_0_1_n_n.rhsNonContracting by decide)]
  rfl

/-- The [4096, 64] by [64, 16] product into the zero matrix at (p, c): the sum over the 64 shared coordinates of the products. -/
theorem mm_sup (A : FVec Ideal S4096x64 .f32) (B : FVec Ideal S64x16 .f32) (p : Fin 4096) (c : Fin 16) :
    matmul dot_S4096x64_S64x16_S4096x16_1_0_0_1_n_n none A B (constant (F := Ideal) S4096x16 .f32 0x00000000#32) (ix2 p c)
      = ∑ k : Fin 64, A (ix2 p k) * B (ix2 k c) := by
  refine (Ideal.matmul_constant_zero_apply dot_S4096x64_S64x16_S4096x16_1_0_0_1_n_n none A B (ix2 p c)).trans ?_
  rw [← Equiv.sum_comp (ValueIdx.contrEquiv1 dot_S4096x64_S64x16_S4096x16_1_0_0_1_n_n 64 rfl rfl).symm]
  refine Finset.sum_congr rfl fun k _ => ?_
  have hk := ValueIdx.contrEquiv1_symm_val dot_S4096x64_S64x16_S4096x16_1_0_0_1_n_n 64 rfl rfl k
  have el : dot_S4096x64_S64x16_S4096x16_1_0_0_1_n_n.lhsIdx (ix2 p c) ((ValueIdx.contrEquiv1 dot_S4096x64_S64x16_S4096x16_1_0_0_1_n_n 64 rfl rfl).symm k) = ix2 p k := funext fun a => Fin.ext (by
    match a with
    | ⟨0, _⟩ => exact lhs_sup_0 _ _
    | ⟨1, _⟩ => exact (lhs_sup_1 _ _).trans hk)
  have er : dot_S4096x64_S64x16_S4096x16_1_0_0_1_n_n.rhsIdx (ix2 p c) ((ValueIdx.contrEquiv1 dot_S4096x64_S64x16_S4096x16_1_0_0_1_n_n 64 rfl rfl).symm k) = ix2 k c := funext fun a => Fin.ext (by
    match a with
    | ⟨0, _⟩ => exact (rhs_sup_0 _ _).trans hk
    | ⟨1, _⟩ => exact rhs_sup_1 _ _)
  rw [el, er]

end Pay1

/-- The support matrix of region 1 at (n, d). -/
theorem pay_sup1 (xh : Vec Ideal S1x4096x64 .f32) (xw : Vec Ideal S1x64x16 .f32) (n : Fin 4096) (d : Fin 16) :
    k1_pay1 (F := Ideal) xh xw (ix2 n d) = ∑ h : Fin 64, xh (ix3 (0 : Fin 1) n h) * xw (ix3 (0 : Fin 1) h d) := by
  unfold k1_pay1
  rw [shapeCast_self]
  refine (Pay1.mm_sup _ _ n d).trans ?_
  refine Finset.sum_congr rfl fun h _ => ?_
  rw [shapeCast_1ab_ab_apply, shapeCast_1ab_ab_apply]

/-- Row r of the adjacency block against column d of the scratch. -/
def zrow (xa : Vec Ideal S1x512x4096 .f32) (s : Vec Ideal S4096x16 .f32) (r : Fin 512) (d : Fin 16) : EReal :=
  ∑ n : Fin 4096, xa (ix3 (0 : Fin 1) r n) * s (ix2 n d)

namespace Pay1

/-! ## The output block: a [512, 4096] by [4096, 16] product into zeros, each row over its Euclidean length -/

theorem lhs_out_0 (i : S512x16.Idx) (q : dot_S512x4096_S4096x16_S512x16_1_0_0_1_n_n.contr.Idx) :
    (dot_S512x4096_S4096x16_S512x16_1_0_0_1_n_n.lhsIdx i q 0).val = (i 0).val := by
  unfold DotDims.lhsIdx
  rw [dif_neg (show ¬(0 : Fin S512x4096.rank) ∈ dot_S512x4096_S4096x16_S512x16_1_0_0_1_n_n.lhsBatch by decide), dif_pos (show (0 : Fin S512x4096.rank) ∈ dot_S512x4096_S4096x16_S512x16_1_0_0_1_n_n.lhsNonContracting by decide)]
  rfl
theorem lhs_out_1 (i : S512x16.Idx) (q : dot_S512x4096_S4096x16_S512x16_1_0_0_1_n_n.contr.Idx) :
    (dot_S512x4096_S4096x16_S512x16_1_0_0_1_n_n.lhsIdx i q 1).val = (q ⟨0, by decide⟩).val :=
  dot_S512x4096_S4096x16_S512x16_1_0_0_1_n_n.lhsIdx_val_of_single rfl i q
theorem rhs_out_0 (i : S512x16.Idx) (q : dot_S512x4096_S4096x16_S512x16_1_0_0_1_n_n.contr.Idx) :
    (dot_S512x4096_S4096x16_S512x16_1_0_0_1_n_n.rhsIdx i q 0).val = (q ⟨0, by decide⟩).val :=
  dot_S512x4096_S4096x16_S512x16_1_0_0_1_n_n.rhsIdx_val_of_single rfl i q
theorem rhs_out_1 (i : S512x16.Idx) (q : dot_S512x4096_S4096x16_S512x16_1_0_0_1_n_n.contr.Idx) :
    (dot_S512x4096_S4096x16_S512x16_1_0_0_1_n_n.rhsIdx i q 1).val = (i 1).val := by
  unfold DotDims.rhsIdx
  rw [dif_neg (show ¬(1 : Fin S4096x16.rank) ∈ dot_S512x4096_S4096x16_S512x16_1_0_0_1_n_n.rhsBatch by decide), dif_pos (show (1 : Fin S4096x16.rank) ∈ dot_S512x4096_S4096x16_S512x16_1_0_0_1_n_n.rhsNonContracting by decide)]
  rfl

/-- The [512, 4096] by [4096, 16] product into the zero matrix at (p, c): the sum over the 4096 shared coordinates of the products. -/
theorem mm_out (A : FVec Ideal S512x4096 .f32) (B : FVec Ideal S4096x16 .f32) (p : Fin 512) (c : Fin 16) :
    matmul dot_S512x4096_S4096x16_S512x16_1_0_0_1_n_n none A B (constant (F := Ideal) S512x16 .f32 0x00000000#32) (ix2 p c)
      = ∑ k : Fin 4096, A (ix2 p k) * B (ix2 k c) := by
  refine (Ideal.matmul_constant_zero_apply dot_S512x4096_S4096x16_S512x16_1_0_0_1_n_n none A B (ix2 p c)).trans ?_
  rw [← Equiv.sum_comp (ValueIdx.contrEquiv1 dot_S512x4096_S4096x16_S512x16_1_0_0_1_n_n 4096 rfl rfl).symm]
  refine Finset.sum_congr rfl fun k _ => ?_
  have hk := ValueIdx.contrEquiv1_symm_val dot_S512x4096_S4096x16_S512x16_1_0_0_1_n_n 4096 rfl rfl k
  have el : dot_S512x4096_S4096x16_S512x16_1_0_0_1_n_n.lhsIdx (ix2 p c) ((ValueIdx.contrEquiv1 dot_S512x4096_S4096x16_S512x16_1_0_0_1_n_n 4096 rfl rfl).symm k) = ix2 p k := funext fun a => Fin.ext (by
    match a with
    | ⟨0, _⟩ => exact lhs_out_0 _ _
    | ⟨1, _⟩ => exact (lhs_out_1 _ _).trans hk)
  have er : dot_S512x4096_S4096x16_S512x16_1_0_0_1_n_n.rhsIdx (ix2 p c) ((ValueIdx.contrEquiv1 dot_S512x4096_S4096x16_S512x16_1_0_0_1_n_n 4096 rfl rfl).symm k) = ix2 k c := funext fun a => Fin.ext (by
    match a with
    | ⟨0, _⟩ => exact (rhs_out_0 _ _).trans hk
    | ⟨1, _⟩ => exact rhs_out_1 _ _)
  rw [el, er]

/-- The product of the adjacency rows, read without their unit axis, with the scratch, at (r, d): row r against column d. -/
theorem z_at (xa : Vec Ideal S1x512x4096 .f32) (s : Vec Ideal S4096x16 .f32) (r : Fin 512) (d : Fin 16) :
    matmul (φ₁ := .f32) (φ₂ := .f32) dot_S512x4096_S4096x16_S512x16_1_0_0_1_n_n none (shapeCast S512x4096 xa shapeCasts_S1x512x4096_S512x4096) s
        (constant (F := Ideal) S512x16 .f32 0x00000000#32) (ix2 r d)
      = zrow xa s r d := by
  refine (mm_out _ _ r d).trans ?_
  unfold zrow
  refine Finset.sum_congr rfl fun n _ => ?_
  rw [shapeCast_1ab_ab_apply]

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A square root at an index is the extended reals' square root of the element. -/
theorem sqrt_apply {s : Shape} {φ : FTy} (a : FVec Ideal s φ) (i : s.Idx) : sqrt a i = Ideal.sqrt (a i) := rfl

end Pay1

/-- Region 1's output block at (r, d): the row entry over the row's Euclidean length. -/
theorem pay_out1 (xa : Vec Ideal S1x512x4096 .f32) (s : Vec Ideal S4096x16 .f32) (r : Fin 512) (d : Fin 16) :
    k1_pay2 (F := Ideal) xa s (ix3 (0 : Fin 1) r d)
      = Ideal.div (zrow xa s r d) (Ideal.sqrt (∑ e : Fin 16, zrow xa s r e * zrow xa s r e)) := by
  unfold k1_pay2
  refine (shapeCast_ab_1ab_apply _ _ (0 : Fin 1) r d).trans ?_
  refine (divf_apply _ _ (ix2 r d)).trans ?_
  refine congrArg₂ Ideal.div (Pay1.z_at xa s r d) ?_
  refine (Pay1.broadcastTo_a1_ab_apply _ _ r d).trans ?_
  refine (Pay1.sqrt_apply _ _).trans (congrArg Ideal.sqrt ?_)
  refine (Pay1.shapeCast_a_a1_apply _ _ r (0 : Fin 1)).trans ?_
  refine (Ideal.multiReduction_add_single (a := (1 : Fin S512x16.rank)) _ _ reduces_S512x16_S512 _ _ (ix1 r)).trans ?_
  show ∑ e : Fin 16, _ = _
  refine Finset.sum_congr rfl fun e _ => ?_
  have hl : reduces_S512x16_S512.lift (ix1 r) e = ix2 r e := funext fun a => Fin.ext (by
    match a with
    | ⟨0, _⟩ => rfl
    | ⟨1, _⟩ => rfl)
  rw [hl]
  refine (mulf_apply _ _ (ix2 r e)).trans ?_
  exact congrArg₂ (· * ·) (Pay1.z_at xa s r e) (Pay1.z_at xa s r e)

end Cert.KernelIdeal.Hand

end
-- ==== Proof.KI.Val1.lean ====
/-
  Region 1's result array over the extended reals: given the hidden layer in its second operand, after the last grid point
  the array holds at (b, r, d) the entry  zr[b, r, d] = Σ_n adj[b, r, n] · (Σ_h hid[b, n, h] · W2[b, h, d])  divided by the
  square root of Σ_e zr[b, r, e]² — the reference's normalised embedding.
-/
import proofs.«129303_j70884140253432_1_alg».proof.Proof.KI.Dat1
import proofs.«129303_j70884140253432_1_alg».proof.Proof.KI.Pay1
import proofs.«129303_j70884140253432_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

/-! ## The un-normalised embedding and the reference read through it -/

/-- Entry (b, R, d) of adj[b] · (hid[b] · W2[b]). -/
def zr (hid : Vec Ideal S4x4096x64 .f32) (adj : Vec Ideal S4x4096x4096 .f32) (w2 : Vec Ideal S4x64x16 .f32)
    (b : Fin 4) (R : Fin 4096) (d : Fin 16) : EReal :=
  ∑ n : Fin 4096, adj (ix3 b R n) * ∑ h : Fin 64, hid (ix3 b n h) * w2 (ix3 b h d)

/-- The reference's second graph convolution at (b, R, d). -/
theorem ref_conv (x : (⟨S4x4096x128, .f32⟩ : BufTy).Contents (Elt Ideal)) (adj : (⟨S4x4096x4096, .f32⟩ : BufTy).Contents (Elt Ideal))
    (w1 : (⟨S4x128x64, .f32⟩ : BufTy).Contents (Elt Ideal)) (w2 : (⟨S4x64x16, .f32⟩ : BufTy).Contents (Elt Ideal))
    (b : Fin 4) (R : Fin 4096) (d : Fin 16) :
    Cert.ReferenceIdeal.Read.val_main_v4 (F := Ideal) x adj w1 w2 (ix3 b R d)
      = zr (Cert.ReferenceIdeal.Read.val_main_v2 (F := Ideal) x adj w1) adj w2 b R d := by
  rw [Cert.ReferenceIdeal.Read.val_main_v4_apply]
  unfold zr
  refine Finset.sum_congr rfl fun n _ => ?_
  have e1 : Cert.ReferenceIdeal.Read.lidx_main_v4 (ix3 b R d) n = ix3 b R n :=
    funext fun a => Fin.ext (by match a with | ⟨0, _⟩ => rfl | ⟨1, _⟩ => rfl | ⟨2, _⟩ => rfl)
  have e2 : Cert.ReferenceIdeal.Read.ridx_main_v4 (ix3 b R d) n = ix3 b n d :=
    funext fun a => Fin.ext (by match a with | ⟨0, _⟩ => rfl | ⟨1, _⟩ => rfl | ⟨2, _⟩ => rfl)
  rw [e1, e2, Cert.ReferenceIdeal.Read.val_main_v3_apply]
  refine congrArg (_ * ·) (Finset.sum_congr rfl fun h _ => ?_)
  have e3 : Cert.ReferenceIdeal.Read.lidx_main_v3 (ix3 b n d) h = ix3 b n h :=
    funext fun a => Fin.ext (by match a with | ⟨0, _⟩ => rfl | ⟨1, _⟩ => rfl | ⟨2, _⟩ => rfl)
  have e4 : Cert.ReferenceIdeal.Read.ridx_main_v3 (ix3 b n d) h = ix3 b h d :=
    funext fun a => Fin.ext (by match a with | ⟨0, _⟩ => rfl | ⟨1, _⟩ => rfl | ⟨2, _⟩ => rfl)
  rw [e3, e4]

/-- The reference's normalised embedding at (b, R, d). -/
theorem ref_norm (x : (⟨S4x4096x128, .f32⟩ : BufTy).Contents (Elt Ideal)) (adj : (⟨S4x4096x4096, .f32⟩ : BufTy).Contents (Elt Ideal))
    (w1 : (⟨S4x128x64, .f32⟩ : BufTy).Contents (Elt Ideal)) (w2 : (⟨S4x64x16, .f32⟩ : BufTy).Contents (Elt Ideal))
    (b : Fin 4) (R : Fin 4096) (d : Fin 16) :
    Cert.ReferenceIdeal.Read.val_main_v7 (F := Ideal) x adj w1 w2 (ix3 b R d)
      = Ideal.div (zr (Cert.ReferenceIdeal.Read.val_main_v2 (F := Ideal) x adj w1) adj w2 b R d)
          (Ideal.sqrt (∑ e : Fin 16, zr (Cert.ReferenceIdeal.Read.val_main_v2 (F := Ideal) x adj w1) adj w2 b R e
            * zr (Cert.ReferenceIdeal.Read.val_main_v2 (F := Ideal) x adj w1) adj w2 b R e)) := by
  rw [Cert.ReferenceIdeal.Read.val_main_v7_apply, Cert.ReferenceIdeal.Read.val_main_v6_apply,
    Cert.ReferenceIdeal.Read.val_main_v5_apply, Cert.ReferenceIdeal.Read.val_main_call1_v2_apply,
    Cert.ReferenceIdeal.Read.val_main_call1_v1_apply, Cert.ReferenceIdeal.Read.val_main_call1_cst_apply,
    Ideal.hostDivf_def, Ideal.hostUnary_sqrt_def, Ideal.ofBits_def, Ideal.ofBits_zero_f32, zero_add, ref_conv]
  refine congrArg (fun s => Ideal.div _ (Ideal.sqrt s)) (Finset.sum_congr rfl fun e _ => ?_)
  have e1 : Cert.ReferenceIdeal.Read.idx_main_call1_v1
      (Cert.ReferenceIdeal.Read.idx_main_call1_v2 (Cert.ReferenceIdeal.Read.idx_main_v6 (ix3 b R d))) e = ix3 b R e :=
    funext fun a => Fin.ext (by match a with | ⟨0, _⟩ => rfl | ⟨1, _⟩ => rfl | ⟨2, _⟩ => rfl)
  rw [e1, Cert.ReferenceIdeal.Read.val_main_call1_v0_apply, Ideal.mulf_def, ref_conv]

/-! ## The output block from its three input blocks -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The support matrix is its payload: one whole-buffer store of whole-buffer loads. -/
theorem sup1_eq (xh : Vec Ideal S1x4096x64 .f32) (xw : Vec Ideal S1x64x16 .f32) : sup1 xh xw = k1_pay1 xh xw := by
  unfold sup1
  rw [View.canon_unit_zero zeros2]
  simp only [View.ld_unit_zero (S := S1x4096x64) zeros3, View.ld_unit_zero (S := S1x64x16) zeros3]

/-- The output block is its payload. -/
theorem out1_eq (xa : Vec Ideal S1x512x4096 .f32) (s : Vec Ideal S4096x16 .f32) : out1 xa s = k1_pay2 xa s := by
  unfold out1
  rw [View.canon_unit_zero zeros3]
  simp only [View.ld_unit_zero (S := S1x512x4096) zeros3, View.ld_unit_zero (S := S4096x16) zeros2]

/-- When the three blocks are rows R-block of adj[b], all of hid[b] and all of W2[b], row r of the output block is row R of the
    normalised embedding of batch b. -/
theorem out_block (xa : Vec Ideal S1x512x4096 .f32) (xh : Vec Ideal S1x4096x64 .f32) (xw : Vec Ideal S1x64x16 .f32)
    (hid : Vec Ideal S4x4096x64 .f32) (adj : Vec Ideal S4x4096x4096 .f32) (w2 : Vec Ideal S4x64x16 .f32)
    (b : Fin 4) (R : Fin 4096) (r : Fin 512) (d : Fin 16)
    (ea : ∀ n : Fin 4096, xa (ix3 (0 : Fin 1) r n) = adj (ix3 b R n))
    (eh : ∀ (n : Fin 4096) (h : Fin 64), xh (ix3 (0 : Fin 1) n h) = hid (ix3 b n h))
    (ew : ∀ (h : Fin 64) (e : Fin 16), xw (ix3 (0 : Fin 1) h e) = w2 (ix3 b h e)) :
    out1 xa (sup1 xh xw) (ix3 (0 : Fin 1) r d)
      = Ideal.div (zr hid adj w2 b R d) (Ideal.sqrt (∑ e : Fin 16, zr hid adj w2 b R e * zr hid adj w2 b R e)) := by
  have hz : ∀ e : Fin 16, zrow xa (sup1 xh xw) r e = zr hid adj w2 b R e := fun e => by
    unfold zrow zr
    refine Finset.sum_congr rfl fun n _ => ?_
    rw [ea n, sup1_eq, pay_sup1]
    refine congrArg (_ * ·) (Finset.sum_congr rfl fun h _ => ?_)
    rw [eh n h, ew h e]
  rw [out1_eq, pay_out1, hz d]
  refine congrArg (fun s => Ideal.div _ (Ideal.sqrt s)) (Finset.sum_congr rfl fun e _ => ?_)
  rw [hz e]

/-! ## The blocks read off their arrays -/

/-- The index maps over the grid: point t = 8·b + i takes row block i of batch b of adj and of the result, and all of
    batch b of the hidden layer and of W2. -/
theorem index_facts1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0 :=
  (by decide +kernel : ∀ t : Fin grid1.N, _)

/-- The adjacency block at point t is rows 512·(t mod 8) … of batch t / 8. -/
theorem ablk1_apply (V : (c : Dev nD) → (b : Ref sig .tc) → Buf (Elt Ideal) ((c : Thread nD τ).loc b)) (c : Dev nD)
    (t : Fin cfg1.N) (r : Fin 512) (n : Fin 4096) (i : S4x4096x4096.Idx)
    (h0 : (i 0).val = t.val / 8) (h1 : (i 1).val = 512 * (t.val % 8) + r.val) (h2 : (i 2).val = n.val) :
    ablk1 (F := Ideal) V c t (ix3 (0 : Fin 1) r n) = (V c main_arg1 : S4x4096x4096.Idx → Elt Ideal .f32) i := by
  obtain ⟨e0, e1, e2, -⟩ := index_facts1 t
  show V c main_arg1 (((cfg1.win 0).blk t).view.emb (ix3 (0 : Fin 1) r n)) = V c main_arg1 i
  refine congrArg _ (funext fun a => Fin.ext ?_)
  match a with
  | ⟨0, _⟩ => show win1_0.index t (0 : Fin 3) * 1 + 1 * 0 = (i 0).val; rw [e0, h0]; omega
  | ⟨1, _⟩ => show win1_0.index t (1 : Fin 3) * 512 + 1 * r.val = (i 1).val; rw [e1, h1]; omega
  | ⟨2, _⟩ => show win1_0.index t (2 : Fin 3) * 4096 + 1 * n.val = (i 2).val; rw [e2, h2]; omega

/-- The hidden-layer block at any point of batch t / 8 is that batch, whole. -/
theorem hblk1_apply (V : (c : Dev nD) → (b : Ref sig .tc) → Buf (Elt Ideal) ((c : Thread nD τ).loc b)) (c : Dev nD)
    (t : Fin cfg1.N) (n : Fin 4096) (h : Fin 64) (i : S4x4096x64.Idx)
    (h0 : (i 0).val = t.val / 8) (h1 : (i 1).val = n.val) (h2 : (i 2).val = h.val) :
    hblk1 (F := Ideal) V c t (ix3 (0 : Fin 1) n h) = (V c main_v0 : S4x4096x64.Idx → Elt Ideal .f32) i := by
  obtain ⟨-, -, -, e0, e1, e2, -⟩ := index_facts1 t
  show V c main_v0 (((cfg1.win 1).blk t).view.emb (ix3 (0 : Fin 1) n h)) = V c main_v0 i
  refine congrArg _ (funext fun a => Fin.ext ?_)
  match a with
  | ⟨0, _⟩ => show win1_1.index t (0 : Fin 3) * 1 + 1 * 0 = (i 0).val; rw [e0, h0]; omega
  | ⟨1, _⟩ => show win1_1.index t (1 : Fin 3) * 4096 + 1 * n.val = (i 1).val; rw [e1, h1]; omega
  | ⟨2, _⟩ => show win1_1.index t (2 : Fin 3) * 64 + 1 * h.val = (i 2).val; rw [e2, h2]; omega

/-- The W2 block at any point of batch t / 8 is that batch, whole. -/
theorem wblk1_apply (V : (c : Dev nD) → (b : Ref sig .tc) → Buf (Elt Ideal) ((c : Thread nD τ).loc b)) (c : Dev nD)
    (t : Fin cfg1.N) (h : Fin 64) (d : Fin 16) (i : S4x64x16.Idx)
    (h0 : (i 0).val = t.val / 8) (h1 : (i 1).val = h.val) (h2 : (i 2).val = d.val) :
    wblk1 (F := Ideal) V c t (ix3 (0 : Fin 1) h d) = (V c main_arg3 : S4x64x16.Idx → Elt Ideal .f32) i := by
  obtain ⟨-, -, -, -, -, -, e0, e1, e2, -⟩ := index_facts1 t
  show V c main_arg3 (((cfg1.win 2).blk t).view.emb (ix3 (0 : Fin 1) h d)) = V c main_arg3 i
  refine congrArg _ (funext fun a => Fin.ext ?_)
  match a with
  | ⟨0, _⟩ => show win1_2.index t (0 : Fin 3) * 1 + 1 * 0 = (i 0).val; rw [e0, h0]; omega
  | ⟨1, _⟩ => show win1_2.index t (1 : Fin 3) * 64 + 1 * h.val = (i 1).val; rw [e1, h1]; omega
  | ⟨2, _⟩ => show win1_2.index t (2 : Fin 3) * 16 + 1 * d.val = (i 2).val; rw [e2, h2]; omega

/-! ## What a point writes back, and the array after the last point -/

/-- Row r, column d of the output block at point t is the normalised embedding at (t / 8, 512·(t mod 8) + r, d) of the arrays
    the region finds. -/
theorem res1_apply (V : (c : Dev nD) → (b : Ref sig .tc) → Buf (Elt Ideal) ((c : Thread nD τ).loc b)) (c : Dev nD)
    (t : Fin cfg1.N) (b : Fin 4) (R : Fin 4096) (r : Fin 512) (d : Fin 16)
    (hb : b.val = t.val / 8) (hR : R.val = 512 * (t.val % 8) + r.val) :
    res1 (F := Ideal) V c t (ix3 (0 : Fin 1) r d)
      = Ideal.div (zr (V c main_v0) (V c main_arg1) (V c main_arg3) b R d)
          (Ideal.sqrt (∑ e : Fin 16, zr (V c main_v0) (V c main_arg1) (V c main_arg3) b R e
            * zr (V c main_v0) (V c main_arg1) (V c main_arg3) b R e)) := by
  have hbase : b.val = (base1 t).val / 8 := by rw [hb]; unfold base1; dsimp only; omega
  unfold res1 scr1
  exact out_block (ablk1 V c t) (hblk1 V c (base1 t)) (wblk1 V c (base1 t)) (V c main_v0) (V c main_arg1) (V c main_arg3) b R r d
    (fun n => ablk1_apply V c t r n (ix3 b R n) hb hR rfl)
    (fun n h => hblk1_apply V c (base1 t) n h (ix3 b n h) hbase rfl rfl)
    (fun h e => wblk1_apply V c (base1 t) h e (ix3 b h e) hbase rfl rfl)

/-- What point t writes back is its block of the reference's normalised embedding. -/
theorem flushed1_eq (V : (c : Dev nD) → (b : Ref sig .tc) → Buf (Elt Ideal) ((c : Thread nD τ).loc b)) (c : Dev nD)
    (x : (⟨S4x4096x128, .f32⟩ : BufTy).Contents (Elt Ideal)) (adj : (⟨S4x4096x4096, .f32⟩ : BufTy).Contents (Elt Ideal))
    (w1 : (⟨S4x128x64, .f32⟩ : BufTy).Contents (Elt Ideal)) (w2 : (⟨S4x64x16, .f32⟩ : BufTy).Contents (Elt Ideal))
    (hh : V c main_v0 = Cert.ReferenceIdeal.Read.val_main_v2 (F := Ideal) x adj w1) (ha : V c main_arg1 = adj) (hw : V c main_arg3 = w2)
    (t : Fin cfg1.N) :
    (dat1 (F := Ideal) V c).flushed 3 t
      = ((cfg1.win 3).blk t).view.read (Elt Ideal) (Cert.ReferenceIdeal.Read.val_main_v7 (F := Ideal) x adj w1 w2) := by
  show (cfg1.win 3).cut (grid1.coords t) ((dat1 V c).after 3 t) = _
  rw [after1_3]
  obtain ⟨-, -, -, -, -, -, -, -, -, e0, e1, e2⟩ := index_facts1 t
  have hN : cfg1.N = 32 := N_1
  have ht : t.val < 32 := hN ▸ t.isLt
  funext j
  have hj0 : (j 0).val < 1 := (j 0).isLt
  have hj1 : (j 1).val < 512 := (j 1).isLt
  have hj2 : (j 2).val < 16 := (j 2).isLt
  have hl : (cfg1.win 3).cut (grid1.coords t) (res1 V c t) j
      = res1 V c t (ix3 (0 : Fin 1) (⟨(j 1).val, hj1⟩ : Fin 512) (⟨(j 2).val, hj2⟩ : Fin 16)) :=
    congrArg (res1 V c t) (funext fun a => Fin.ext (by
      match a with
      | ⟨0, _⟩ => show (j 0).val = 0; omega
      | ⟨1, _⟩ => rfl
      | ⟨2, _⟩ => rfl))
  have hr : ((cfg1.win 3).blk t).view.emb j
      = ix3 (⟨t.val / 8, by omega⟩ : Fin 4) (⟨512 * (t.val % 8) + (j 1).val, by omega⟩ : Fin 4096) (⟨(j 2).val, hj2⟩ : Fin 16) :=
    funext fun a => Fin.ext (by
      match a with
      | ⟨0, _⟩ => show win1_3.index t (0 : Fin 3) * 1 + 1 * (j 0).val = t.val / 8; rw [e0]; omega
      | ⟨1, _⟩ => show win1_3.index t (1 : Fin 3) * 512 + 1 * (j 1).val = 512 * (t.val % 8) + (j 1).val; rw [e1]; omega
      | ⟨2, _⟩ => show win1_3.index t (2 : Fin 3) * 16 + 1 * (j 2).val = (j 2).val; rw [e2]; omega)
  rw [View.read_apply, hl, hr, ref_norm, res1_apply V c t ⟨t.val / 8, by omega⟩ ⟨512 * (t.val % 8) + (j 1).val, by omega⟩ ⟨(j 1).val, hj1⟩ ⟨(j 2).val, hj2⟩ rfl rfl,
    hh, ha, hw]
  rfl

/-- An index of the result array is in point t's block iff each coordinate is in the block's range on its axis. -/
theorem mem_blk1 (t : Fin cfg1.N) (i : S4x4096x16.Idx) :
    i ∈ ((cfg1.win 3).blk t).view.set
      ↔ ∀ a : Fin 3, win1_3.index t a * S1x512x16.size a ≤ (i a).val ∧ (i a).val < win1_3.index t a * S1x512x16.size a + S1x512x16.size a := by
  show i ∈ ((View.whole main_v1).slice (win1_3.rect t)).set ↔ _
  rw [View.set_slice_whole, Rect.mem_set_unit]
  exact Iff.rfl

/-- Row R of batch b is written back at point 8·b + R / 512. -/
theorem cover1 (i : S4x4096x16.Idx) :
    ∃ t : Fin cfg1.N, (cfg1.win 3).flush t = true ∧ i ∈ ((cfg1.win 3).blk t).view.set := by
  have h0 : (i 0).val < 4 := (i 0).isLt
  have h1 : (i 1).val < 4096 := (i 1).isLt
  have h2 : (i 2).val < 16 := (i 2).isLt
  have hN : cfg1.N = 32 := N_1
  obtain ⟨t, ht⟩ : ∃ t : Fin cfg1.N, t.val = 8 * (i 0).val + (i 1).val / 512 := ⟨⟨8 * (i 0).val + (i 1).val / 512, by omega⟩, rfl⟩
  obtain ⟨-, -, -, -, -, -, -, -, -, e0, e1, e2⟩ := index_facts1 t
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; rw [e0]; omega
  | ⟨1, _⟩ => show win1_3.index t (1 : Fin 3) * 512 ≤ (i 1).val ∧ (i 1).val < win1_3.index t (1 : Fin 3) * 512 + 512; rw [e1]; omega
  | ⟨2, _⟩ => show win1_3.index t (2 : Fin 3) * 16 ≤ (i 2).val ∧ (i 2).val < win1_3.index t (2 : Fin 3) * 16 + 16; rw [e2]; omega

/-- What region 1 leaves in its result array, when it finds the reference's hidden layer in `main_v0`. -/
theorem reg1_value (V : (c : Dev nD) → (b : Ref sig .tc) → Buf (Elt Ideal) ((c : Thread nD τ).loc b)) (c : Dev nD)
    (x : (⟨S4x4096x128, .f32⟩ : BufTy).Contents (Elt Ideal)) (adj : (⟨S4x4096x4096, .f32⟩ : BufTy).Contents (Elt Ideal))
    (w1 : (⟨S4x128x64, .f32⟩ : BufTy).Contents (Elt Ideal)) (w2 : (⟨S4x64x16, .f32⟩ : BufTy).Contents (Elt Ideal))
    (hh : V c main_v0 = Cert.ReferenceIdeal.Read.val_main_v2 (F := Ideal) x adj w1) (ha : V c main_arg1 = adj) (hw : V c main_arg3 = w2) :
    (dat1 (F := Ideal) V c).arrAt 3 cfg1.N = Cert.ReferenceIdeal.Read.val_main_v7 (F := Ideal) x adj w1 w2 :=
  (dat1 (F := Ideal) V c).arrAt_eq_of_cover 3 (Cert.ReferenceIdeal.Read.val_main_v7 (F := Ideal) x adj w1 w2)
    (fun t _ => flushed1_eq V c x adj w1 w2 hh ha hw t) cover1

end Cert.KernelIdeal.Hand

end
-- ==== Proof.KI.Val2.lean ====
/-
  Region 2's result array over the extended reals: given the normalised embedding z in its operand, after the last grid
  point the array holds at (b, i, j) the inner product  Σ_d z[b, i, d] · z[b, j, d]  — the reference's reconstruction.
-/
import proofs.«129303_j70884140253432_1_alg».proof.Proof.KI.Dat2
import proofs.«129303_j70884140253432_1_alg».proof.Proof.KI.Pay0
import proofs.«129303_j70884140253432_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

section Region2Value

variable (V : (c : Dev nD) → (b : Ref sig .tc) → Buf (Elt Ideal) ((c : Thread nD τ).loc b))

/-- The zero offsets of a whole-buffer rectangle of rank three. -/
theorem recon_zero_off : (![0, 0, 0] : Fin 3 → Nat) = fun _ => 0 :=
  funext fun a => by match a with | ⟨0, _⟩ => rfl | ⟨1, _⟩ => rfl | ⟨2, _⟩ => rfl

/-- The block index maps over the grid: point t = 16·b + 4·i + j reads z at blocks (b, i) and (b, j) and writes block (b, i, j). -/
theorem recon_block_indices : ∀ t : Fin cfg2.N,
    win2_0.index t (0 : Fin 3) = t.val / 16 ∧ win2_0.index t (1 : Fin 3) = t.val / 4 % 4 ∧ win2_0.index t (2 : Fin 3) = 0
    ∧ win2_1.index t (0 : Fin 3) = t.val / 16 ∧ win2_1.index t (1 : Fin 3) = t.val % 4 ∧ win2_1.index t (2 : Fin 3) = 0
    ∧ win2_2.index t (0 : Fin 3) = t.val / 16 ∧ win2_2.index t (1 : Fin 3) = t.val / 4 % 4 ∧ win2_2.index t (2 : Fin 3) = t.val % 4 :=
  (by decide +kernel : ∀ t : Fin grid2.N, _)

/-- The first input block at point t is rows block (t / 4) % 4 of batch t / 16 of z. -/
theorem recon_zi_read (c : Dev nD) (t : Fin cfg2.N) (y : S1x1024x16.Idx) (i : S4x4096x16.Idx)
    (h0 : (i 0).val = t.val / 16) (h1 : (i 1).val = t.val / 4 % 4 * 1024 + (y 1).val) (h2 : (i 2).val = (y 2).val) :
    ziblk2 V c t y = V c main_v1 i := by
  show V c main_v1 (((cfg2.win 0).blk t).view.emb y) = V c main_v1 i
  refine congrArg _ ?_
  funext a; apply Fin.ext
  obtain ⟨e0, e1, e2, -⟩ := recon_block_indices t
  match a with
  | ⟨0, _⟩ =>
    show win2_0.index t (0 : Fin 3) * 1 + 1 * (y 0).val = (i 0).val
    have hy : (y 0).val < 1 := (y 0).isLt
    omega
  | ⟨1, _⟩ =>
    show win2_0.index t (1 : Fin 3) * 1024 + 1 * (y 1).val = (i 1).val
    omega
  | ⟨2, _⟩ =>
    show win2_0.index t (2 : Fin 3) * 16 + 1 * (y 2).val = (i 2).val
    omega

/-- The second input block at point t is rows block t % 4 of batch t / 16 of z. -/
theorem recon_zj_read (c : Dev nD) (t : Fin cfg2.N) (y : S1x1024x16.Idx) (i : S4x4096x16.Idx)
    (h0 : (i 0).val = t.val / 16) (h1 : (i 1).val = t.val % 4 * 1024 + (y 1).val) (h2 : (i 2).val = (y 2).val) :
    zjblk2 V c t y = V c main_v1 i := by
  show V c main_v1 (((cfg2.win 1).blk t).view.emb y) = V c main_v1 i
  refine congrArg _ ?_
  funext a; apply Fin.ext
  obtain ⟨-, -, -, e0, e1, e2, -⟩ := recon_block_indices t
  match a with
  | ⟨0, _⟩ =>
    show win2_1.index t (0 : Fin 3) * 1 + 1 * (y 0).val = (i 0).val
    have hy : (y 0).val < 1 := (y 0).isLt
    omega
  | ⟨1, _⟩ =>
    show win2_1.index t (1 : Fin 3) * 1024 + 1 * (y 1).val = (i 1).val
    omega
  | ⟨2, _⟩ =>
    show win2_1.index t (2 : Fin 3) * 16 + 1 * (y 2).val = (i 2).val
    omega

/-- Where the output block's element (0, p, q) at point t sits in the result array. -/
theorem recon_out_coords (t : Fin cfg2.N) (y : S1x1024x1024.Idx) :
    ((((cfg2.win 2).blk t).view.emb y : S4x4096x4096.Idx) 0).val = t.val / 16
    ∧ ((((cfg2.win 2).blk t).view.emb y : S4x4096x4096.Idx) 1).val = t.val / 4 % 4 * 1024 + (y 1).val
    ∧ ((((cfg2.win 2).blk t).view.emb y : S4x4096x4096.Idx) 2).val = t.val % 4 * 1024 + (y 2).val := by
  obtain ⟨-, -, -, -, -, -, e0, e1, e2⟩ := recon_block_indices t
  refine ⟨?_, ?_, ?_⟩
  · show win2_2.index t (0 : Fin 3) * 1 + 1 * (y 0).val = _
    have hy : (y 0).val < 1 := (y 0).isLt
    omega
  · show win2_2.index t (1 : Fin 3) * 1024 + 1 * (y 1).val = _
    omega
  · show win2_2.index t (2 : Fin 3) * 1024 + 1 * (y 2).val = _
    omega

/-- What point t writes back is block t of the reference's inner-product array. -/
theorem recon_flushed (c : Dev nD)
    (x : (⟨S4x4096x128, .f32⟩ : BufTy).Contents (Elt Ideal)) (adj : (⟨S4x4096x4096, .f32⟩ : BufTy).Contents (Elt Ideal))
    (w1 : (⟨S4x128x64, .f32⟩ : BufTy).Contents (Elt Ideal)) (w2 : (⟨S4x64x16, .f32⟩ : BufTy).Contents (Elt Ideal))
    (hz : V c main_v1 = Cert.ReferenceIdeal.Read.val_main_v7 (F := Ideal) x adj w1 w2) (t : Fin cfg2.N) :
    (dat2 (F := Ideal) V c).flushed 2 t
      = ((cfg2.win 2).blk t).view.read (Elt Ideal) (Cert.ReferenceIdeal.Read.val_main_v8 (F := Ideal) x adj w1 w2) := by
  show (cfg2.win 2).cut (grid2.coords t) ((dat2 (F := Ideal) V c).after 2 t) = _
  rw [after2_2]
  unfold res2 out2
  rw [View.canon_unit_zero recon_zero_off]
  simp only [View.ld_unit_zero (S := S1x1024x16) recon_zero_off]
  funext j
  obtain ⟨u, p, q, rfl⟩ : ∃ (u : Fin 1) (p q : Fin 1024), j = ix3 u p q := ⟨j 0, j 1, j 2, eq_ix3 j⟩
  obtain rfl : u = 0 := Subsingleton.elim _ _
  show k2_pay1 (F := Ideal) (ziblk2 V c t) (zjblk2 V c t) (ix3 (0 : Fin 1) p q)
    = Cert.ReferenceIdeal.Read.val_main_v8 (F := Ideal) x adj w1 w2 (((cfg2.win 2).blk t).view.emb (ix3 (0 : Fin 1) p q))
  rw [pay_out2, Cert.ReferenceIdeal.Read.val_main_v8_apply, ← hz]
  obtain ⟨o0, o1, o2⟩ := recon_out_coords t (ix3 (0 : Fin 1) p q)
  refine Finset.sum_congr rfl fun d _ => ?_
  exact congrArg₂ (· * ·) (recon_zi_read V c t _ _ o0 o1 rfl) (recon_zj_read V c t _ _ o0 o2 rfl)

/-- An index of the result array is in point t's block iff each coordinate is in the block's range on its axis. -/
theorem recon_mem_block (t : Fin cfg2.N) (i : S4x4096x4096.Idx) :
    i ∈ ((cfg2.win 2).blk t).view.set ↔ ∀ a : Fin 3, win2_2.index t a * S1x1024x1024.size a ≤ (i a).val
      ∧ (i a).val < win2_2.index t a * S1x1024x1024.size a + S1x1024x1024.size a := by
  show i ∈ ((View.whole main_v2).slice (win2_2.rect t)).set ↔ _
  rw [View.set_slice_whole, Rect.mem_set_unit]
  exact Iff.rfl

/-- Every index (b, r, s) of the result array is in the block of the point 16·b + 4·(r / 1024) + s / 1024, which writes back. -/
theorem recon_covered (i : S4x4096x4096.Idx) :
    ∃ t : Fin cfg2.N, (cfg2.win 2).flush t = true ∧ i ∈ ((cfg2.win 2).blk t).view.set := by
  have h0 : (i 0).val < 4 := (i 0).isLt
  have h1 : (i 1).val < 4096 := (i 1).isLt
  have h2 : (i 2).val < 4096 := (i 2).isLt
  have hN : 16 * (i 0).val + 4 * ((i 1).val / 1024) + (i 2).val / 1024 < cfg2.N := by
    show _ < 64
    omega
  obtain ⟨t, ht⟩ : ∃ t : Fin cfg2.N, t.val = 16 * (i 0).val + 4 * ((i 1).val / 1024) + (i 2).val / 1024 := ⟨⟨_, hN⟩, rfl⟩
  obtain ⟨-, -, -, -, -, -, e0, e1, e2⟩ := recon_block_indices t
  refine ⟨t, flush2_2 t, ?_⟩
  rw [recon_mem_block]
  intro a
  match a with
  | ⟨0, _⟩ =>
    show win2_2.index t (0 : Fin 3) * 1 ≤ (i 0).val ∧ (i 0).val < win2_2.index t (0 : Fin 3) * 1 + 1
    omega
  | ⟨1, _⟩ =>
    show win2_2.index t (1 : Fin 3) * 1024 ≤ (i 1).val ∧ (i 1).val < win2_2.index t (1 : Fin 3) * 1024 + 1024
    omega
  | ⟨2, _⟩ =>
    show win2_2.index t (2 : Fin 3) * 1024 ≤ (i 2).val ∧ (i 2).val < win2_2.index t (2 : Fin 3) * 1024 + 1024
    omega

end Region2Value

/-- What region 2 leaves in its result array, when it finds the reference's normalised embedding in `main_v1`. -/
theorem reg2_value (V : (c : Dev nD) → (b : Ref sig .tc) → Buf (Elt Ideal) ((c : Thread nD τ).loc b)) (c : Dev nD)
    (x : (⟨S4x4096x128, .f32⟩ : BufTy).Contents (Elt Ideal)) (adj : (⟨S4x4096x4096, .f32⟩ : BufTy).Contents (Elt Ideal))
    (w1 : (⟨S4x128x64, .f32⟩ : BufTy).Contents (Elt Ideal)) (w2 : (⟨S4x64x16, .f32⟩ : BufTy).Contents (Elt Ideal))
    (hz : V c main_v1 = Cert.ReferenceIdeal.Read.val_main_v7 (F := Ideal) x adj w1 w2) :
    (dat2 (F := Ideal) V c).arrAt 2 cfg2.N = Cert.ReferenceIdeal.Read.val_main_v8 (F := Ideal) x adj w1 w2 := by
  exact (dat2 (F := Ideal) V c).arrAt_eq_of_cover 2 _ (fun t _ => recon_flushed V c x adj w1 w2 hz t) recon_covered

end Cert.KernelIdeal.Hand

end
-- ==== Proof.KI.Result.lean ====
/-
  The kernel's result over the extended reals, as the reference's last stage function of the four argument arrays.

  Region 0 leaves the reference's hidden layer in its array; region 1, finding it there, leaves the reference's normalised
  embedding; region 2, finding that, leaves the reference's reconstruction. Each step reads the valuation the region is
  entered from: the launch memory updated at the earlier regions' result arrays.
-/
import proofs.«129303_j70884140253432_1_alg».proof.Proof.KI.Run
import proofs.«129303_j70884140253432_1_alg».proof.Proof.KI.Val0
import proofs.«129303_j70884140253432_1_alg».proof.Proof.KI.Val1
import proofs.«129303_j70884140253432_1_alg».proof.Proof.KI.Val2

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- Region 0 leaves the hidden layer. -/
theorem o1_eq (c : Dev nD) :
    o1 m c = Cert.ReferenceIdeal.Read.val_main_v2 (F := Ideal) (m ((c.tc : Thread nD τ).loc main_arg0)) (m ((c.tc : Thread nD τ).loc main_arg1))
      (m ((c.tc : Thread nD τ).loc main_arg2)) :=
  reg0_value (E0 m) c _ _ _ rfl rfl rfl

/-- Region 1 leaves the normalised embedding. -/
theorem o2_eq (c : Dev nD) :
    o2 m c = Cert.ReferenceIdeal.Read.val_main_v7 (F := Ideal) (m ((c.tc : Thread nD τ).loc main_arg0)) (m ((c.tc : Thread nD τ).loc main_arg1))
      (m ((c.tc : Thread nD τ).loc main_arg2)) (m ((c.tc : Thread nD τ).loc main_arg3)) :=
  reg1_value (E1 m) c _ _ _ _
    ((Function.update_self (Proc.devRef .tc main_v0 : DevRef τ sig) (o1 m c) (U0 m c)).trans (o1_eq m c))
    (Function.update_of_ne (ne_ref (a := main_arg1) (b := main_v0) (by decide)) (o1 m c) (U0 m c))
    (Function.update_of_ne (ne_ref (a := main_arg3) (b := main_v0) (by decide)) (o1 m c) (U0 m c))

/-- Region 2 leaves the reconstruction. -/
theorem o3_eq (c : Dev nD) :
    o3 m c = Cert.ReferenceIdeal.Read.val_main_v8 (F := Ideal) (m ((c.tc : Thread nD τ).loc main_arg0)) (m ((c.tc : Thread nD τ).loc main_arg1))
      (m ((c.tc : Thread nD τ).loc main_arg2)) (m ((c.tc : Thread nD τ).loc main_arg3)) :=
  reg2_value (E2 m) c _ _ _ _
    ((Function.update_self (Proc.devRef .tc main_v1 : DevRef τ sig) (o2 m c) (U1 m c)).trans (o2_eq m c))

end Cert.KernelIdeal.Hand

end
-- ==== Proof.lean ====
/-
  The certificate of a graph auto-encoder's forward pass against its jnp reference.

  Both programs compute, per batch b:  hid = max(adj · (x · W1), 0),  zr = adj · (hid · W2),  z = zr / sqrt(Σ_d zr²)  row by
  row, and recon = z · zᵀ. The kernel does it in three pipelined regions (the two graph convolutions, each keeping its small
  right operand x·W1, hid·W2 in a scratch stored at the first of a batch's eight row blocks and read at the other seven, and
  the decoder, whose two input windows read one array); the reference in plain matrix products. Over the extended reals a
  product into a zero accumulator, a lane sum and a host sum are plain sums, square root and quotient are one function on
  both sides, and the two programs group their products alike, so each region leaves exactly the reference's intermediate
  array: no algebraic law beyond reindexing a sum is used, and the precondition is never opened.

  The frames: each region's body is run symbolically at a generic grid point (two cases for the convolutions), the three
  regions are composed through the valuations the launch memory passes through, and the reference's frame is its run with
  the result dropped. The word-level program's frame is the same text in its namespace. The ideal pass rewrote nothing, so
  the idealization claim is trivial.
-/
import proofs.«129303_j70884140253432_1_alg».proof.Defs
import proofs.«129303_j70884140253432_1_alg».proof.Proof.Gen.Kernel
import proofs.«129303_j70884140253432_1_alg».proof.Proof.Gen.KernelIdeal
import proofs.«129303_j70884140253432_1_alg».proof.Proof.Gen.ReferenceIdeal
import proofs.«129303_j70884140253432_1_alg».proof.Proof.Gen.ReferenceIdeal.Run
import proofs.«129303_j70884140253432_1_alg».proof.Proof.Gen.ReferenceIdeal.Read
import proofs.«129303_j70884140253432_1_alg».proof.Proof.Gen.Pre_finite_inputs
import proofs.«129303_j70884140253432_1_alg».proof.Proof.K.Run
import proofs.«129303_j70884140253432_1_alg».proof.Proof.KI.Run
import proofs.«129303_j70884140253432_1_alg».proof.Proof.KI.Result
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the reference's last stage function of the launch arrays, and so does the
    reference's, from memories that agree on them. -/
theorem algebraic : Cert.algebraic_KernelIdeal_ReferenceIdeal := by
  intro m ρ m' ρ' _ hagree
  refine ⟨fun c => Cert.KernelIdeal.Hand.o3 m c, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2]
  exact (Cert.KernelIdeal.Hand.o3_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
